-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x2048 : Shape := ⟨2, ![4096, 2048]⟩
abbrev S50257x1024 : Shape := ⟨2, ![50257, 1024]⟩
abbrev S3072x2048 : Shape := ⟨2, ![3072, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S2048 : S_.BroadcastsInDim S2048 (![] : Fin 0 → Fin S2048.rank)
  reducesTo_S2048_S_d0 : S2048.ReducesTo [0] S_
  bcast_S_S4096x1 : S_.BroadcastsInDim S4096x1 (![] : Fin 0 → Fin S4096x1.rank)
  reducesTo_S4096x1_S_d0_1 : S4096x1.ReducesTo [0, 1] S_

variable [Facts]

def fn_part3 {F : FTy → Type} [FloatOps F] (main_arg0 : IVec S4096x1 32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_c_20 : IVec S_ 32 := constantI S_ 32 4294917039#32
  let main_v54 : IVec S4096x1 32 := broadcastInDim S4096x1 ![] bcast_S_S4096x1 main_c_20
  let main_v55 : IVec S4096x1 1 := cmpi .sge main_arg0 main_v54
  let main_c_21 : IVec S_ 1 := constantI S_ 1 1#1
  let main_v56 : IVec S_ 1 := (fun x v => Host.reduce IntOp.andi x v reducesTo_S4096x1_S_d0_1 h_S_) main_v55 main_c_21
  let main_v57 : IVec S_ 1 := andi main_v53 main_v56
  let main_c_22 : IVec S_ 32 := constantI S_ 32 50256#32
  let main_v58 : IVec S4096x1 32 := broadcastInDim S4096x1 ![] bcast_S_S4096x1 main_c_22
  let main_v59 : IVec S4096x1 1 := cmpi .sle main_arg0 main_v58
  let main_c_23 : IVec S_ 1 := constantI S_ 1 1#1
  let main_v60 : IVec S_ 1 := (fun x v => Host.reduce IntOp.andi x v reducesTo_S4096x1_S_d0_1 h_S_) main_v59 main_c_23
  let main_v61 : IVec S_ 1 := andi main_v57 main_v60
  main_v61

def fn_part2 {F : FTy → Type} [FloatOps F] (main_arg0 : IVec S4096x1 32) (main_arg8 : FVec F S3072x2048 .f32) (main_arg9 : FVec F S2048 .f32) (main_arg10 : FVec F S3072x2048 .f32) (main_arg11 : FVec F S2048 .f32) (main_v33 : IVec S_ 1) : IVec S_ 1 :=
  let main_v34 : FVec F S3072x2048 .f32 := Host.absf main_arg8
  let main_cst_12 : FVec F S_ .f32 := constant S_ .f32 0x7F800000#32
  let main_v35 : FVec F S3072x2048 .f32 := broadcastInDim S3072x2048 ![] bcast_S_S3072x2048 main_cst_12
  let main_v36 : IVec S3072x2048 1 := cmpf .olt main_v34 main_v35
  let main_c_13 : IVec S_ 1 := constantI S_ 1 1#1
  let main_v37 : IVec S_ 1 := (fun x v => Host.reduce IntOp.andi x v reducesTo_S3072x2048_S_d0_1 h_S_) main_v36 main_c_13
  let main_v38 : IVec S_ 1 := andi main_v33 main_v37
  let main_v39 : FVec F S2048 .f32 := Host.absf main_arg9
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S3072x2048 .f32 := Host.absf main_arg10
  let main_cst_16 : FVec F S_ .f32 := constant S_ .f32 0x7F800000#32
  let main_v45 : FVec F S3072x2048 .f32 := broadcastInDim S3072x2048 ![] bcast_S_S3072x2048 main_cst_16
  let main_v46 : IVec S3072x2048 1 := cmpf .olt main_v44 main_v45
  let main_c_17 : IVec S_ 1 := constantI S_ 1 1#1
  let main_v47 : IVec S_ 1 := (fun x v => Host.reduce IntOp.andi x v reducesTo_S3072x2048_S_d0_1 h_S_) main_v46 main_c_17
  let main_v48 : IVec S_ 1 := andi main_v43 main_v47
  let main_v49 : FVec F S2048 .f32 := Host.absf main_arg11
  let main_cst_18 : FVec F S_ .f32 := constant S_ .f32 0x7F800000#32
  let main_v50 : FVec F S2048 .f32 := broadcastInDim S2048 ![] bcast_S_S2048 main_cst_18
  fn_part3 (F := F) main_arg0 main_v48 main_v49 main_v50

def fn_part1 {F : FTy → Type} [FloatOps F] (main_arg0 : IVec S4096x1 32) (main_arg5 : FVec F S2048 .f32) (main_arg6 : FVec F S3072x2048 .f32) (main_arg7 : FVec F S2048 .f32) (main_arg8 : FVec F S3072x2048 .f32) (main_arg9 : FVec F S2048 .f32) (main_arg10 : FVec F S3072x2048 .f32) (main_arg11 : FVec F S2048 .f32) (main_v13 : IVec S_ 1) (main_v16 : IVec S3072x2048 1) : IVec S_ 1 :=
  let main_c_5 : IVec S_ 1 := constantI S_ 1 1#1
  let main_v17 : IVec S_ 1 := (fun x v => Host.reduce IntOp.andi x v reducesTo_S3072x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S3072x2048 .f32 := Host.absf main_arg6
  let main_cst_8 : FVec F S_ .f32 := constant S_ .f32 0x7F800000#32
  let main_v25 : FVec F S3072x2048 .f32 := broadcastInDim S3072x2048 ![] bcast_S_S3072x2048 main_cst_8
  let main_v26 : IVec S3072x2048 1 := cmpf .olt main_v24 main_v25
  let main_c_9 : IVec S_ 1 := constantI S_ 1 1#1
  let main_v27 : IVec S_ 1 := (fun x v => Host.reduce IntOp.andi x v reducesTo_S3072x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg0 main_arg8 main_arg9 main_arg10 main_arg11 main_v33

def fn {F : FTy → Type} [FloatOps F] (main_arg0 : IVec S4096x1 32) (main_arg1 : FVec F S4096x2048 .f32) (main_arg2 : FVec F S4096x2048 .f32) (main_arg3 : FVec F S50257x1024 .f32) (main_arg4 : FVec F S3072x2048 .f32) (main_arg5 : FVec F S2048 .f32) (main_arg6 : FVec F S3072x2048 .f32) (main_arg7 : FVec F S2048 .f32) (main_arg8 : FVec F S3072x2048 .f32) (main_arg9 : FVec F S2048 .f32) (main_arg10 : FVec F S3072x2048 .f32) (main_arg11 : FVec F S2048 .f32) : IVec S_ 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S3072x2048 .f32 := Host.absf main_arg4
  let main_cst_4 : FVec F S_ .f32 := constant S_ .f32 0x7F800000#32
  let main_v15 : FVec F S3072x2048 .f32 := broadcastInDim S3072x2048 ![] bcast_S_S3072x2048 main_cst_4
  let main_v16 : IVec S3072x2048 1 := cmpf .olt main_v14 main_v15
  fn_part1 (F := F) main_arg0 main_arg5 main_arg6 main_arg7 main_arg8 main_arg9 main_arg10 main_arg11 main_v13 main_v16
-- ==== Kernel.lean ====
abbrev S4096x1 : Shape := ⟨2, ![4096, 1]⟩
abbrev S4096x2048 : Shape := ⟨2, ![4096, 2048]⟩
abbrev S50257x1024 : Shape := ⟨2, ![50257, 1024]⟩
abbrev S3072x2048 : Shape := ⟨2, ![3072, 2048]⟩
abbrev S2048 : Shape := ⟨1, ![2048]⟩
abbrev S4096 : Shape := ⟨1, ![4096]⟩
abbrev S_ : Shape := ⟨0, ![]⟩
abbrev S1 : Shape := ⟨1, ![1]⟩
abbrev S1x1 : Shape := ⟨2, ![1, 1]⟩
abbrev S4096x1024 : Shape := ⟨2, ![4096, 1024]⟩
abbrev S4096x3072 : Shape := ⟨2, ![4096, 3072]⟩
abbrev S1x2048 : Shape := ⟨2, ![1, 2048]⟩
abbrev S256x3072 : Shape := ⟨2, ![256, 3072]⟩
abbrev S3072x256 : Shape := ⟨2, ![3072, 256]⟩
abbrev S1x256 : Shape := ⟨2, ![1, 256]⟩
abbrev S256x256 : Shape := ⟨2, ![256, 256]⟩

abbrev nBuf : Space → Nat
  | .hbm => 45
  | .vmem => 28
  | .smem => 0
  | _ => 0

abbrev bufTy : (tb : Table) → Fin (tcTables nBuf tb) → BufTy
  | .hbm, ⟨0, _⟩ => ⟨S4096x1, .i32⟩
  | .hbm, ⟨1, _⟩ => ⟨S4096x2048, .f32⟩
  | .hbm, ⟨2, _⟩ => ⟨S4096x2048, .f32⟩
  | .hbm, ⟨3, _⟩ => ⟨S50257x1024, .f32⟩
  | .hbm, ⟨4, _⟩ => ⟨S3072x2048, .f32⟩
  | .hbm, ⟨5, _⟩ => ⟨S2048, .f32⟩
  | .hbm, ⟨6, _⟩ => ⟨S3072x2048, .f32⟩
  | .hbm, ⟨7, _⟩ => ⟨S2048, .f32⟩
  | .hbm, ⟨8, _⟩ => ⟨S3072x2048, .f32⟩
  | .hbm, ⟨9, _⟩ => ⟨S2048, .f32⟩
  | .hbm, ⟨10, _⟩ => ⟨S3072x2048, .f32⟩
  | .hbm, ⟨11, _⟩ => ⟨S2048, .f32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S1x1, .i32⟩
  | .hbm, ⟨26, _⟩ => ⟨S4096x1, .i32⟩
  | .hbm, ⟨27, _⟩ => ⟨S4096x1, .i1⟩
  | .hbm, ⟨28, _⟩ => ⟨S4096x1, .i1⟩
  | .hbm, ⟨29, _⟩ => ⟨S_, .i1⟩
  | .hbm, ⟨30, _⟩ => ⟨S4096, .i1⟩
  | .hbm, ⟨31, _⟩ => ⟨S4096x1024, .f32⟩
  | .hbm, ⟨32, _⟩ => ⟨S4096x1024, .i1⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S4096x2048, .bf16⟩
  | .hbm, ⟨38, _⟩ => ⟨S4096x3072, .bf16⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S4096x2048, .f32⟩
  | .hbm, ⟨44, _⟩ => ⟨S4096x2048, .f32⟩
  | .local _ .vmem, ⟨0, _⟩ => ⟨S256x3072, .bf16⟩
  | .local _ .vmem, ⟨1, _⟩ => ⟨S256x3072, .bf16⟩
  | .local _ .vmem, ⟨2, _⟩ => ⟨S3072x256, .f32⟩
  | .local _ .vmem, ⟨3, _⟩ => ⟨S3072x256, .f32⟩
  | .local _ .vmem, ⟨4, _⟩ => ⟨S3072x256, .f32⟩
  | .local _ .vmem, ⟨5, _⟩ => ⟨S3072x256, .f32⟩
  | .local _ .vmem, ⟨6, _⟩ => ⟨S3072x256, .f32⟩
  | .local _ .vmem, ⟨7, _⟩ => ⟨S3072x256, .f32⟩
  | .local _ .vmem, ⟨8, _⟩ => ⟨S3072x256, .f32⟩
  | .local _ .vmem, ⟨9, _⟩ => ⟨S3072x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S3072x256, .bf16⟩
  | .local _ .vmem, ⟨25, _⟩ => ⟨S3072x256, .bf16⟩
  | .local _ .vmem, ⟨26, _⟩ => ⟨S3072x256, .bf16⟩
  | .local _ .vmem, ⟨27, _⟩ => ⟨S3072x256, .bf16⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_call0_c : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_c_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_c_1 : Ref sig .tc := ⟨.hbm, 21, rfl⟩
abbrev main_call0_call0_c_2 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_c_3 : Ref sig .tc := ⟨.hbm, 29, rfl⟩
abbrev main_call0_call0_v12 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst : Ref sig .tc := ⟨.hbm, 33, rfl⟩
abbrev main_call0_call0_v15 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_v0_0 : Ref sig .tc := ⟨.hbm, 43, rfl⟩
abbrev main_v0_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3072x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3072x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3072x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  bitsLt_bf16_f32 : FTy.bits .bf16 < FTy.bits .f32
  concatenates_S4096x1024_S4096x2048_S4096x3072_d1 : Shape.Concatenates [S4096x1024, S4096x2048] S4096x3072 1
  shapeCasts_S2048_S1x2048 : S2048.ShapeCasts S1x2048
  inb_S3072x256_S3072x256_0_0 : ∀ a, (![0, 0] : Fin 2 → Nat) a + S3072x256.size a ≤ S3072x256.size a
  h_S3072x256 : 0 < S3072x256.numel
  shapeCasts_S3072x256_S3072x256 : S3072x256.ShapeCasts S3072x256
  packedbf16_S3072x256_S3072x256_0_0 : (Rect.unit (s := S3072x256) ![0, 0] S3072x256.size inb_S3072x256_S3072x256_0_0).PackedRows (EltTy.packing .bf16)
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  gather_S50257x1024_S4096x1_S4096x1024_1_0_n_n_0_1_11024_wf : GatherDims.WF S50257x1024 S4096x1 S4096x1024 [1] [0] [] [0] [] 1 ![1, 1024]
  dot_S256x3072_S3072x256_S256x256_1_0_0_1_n_n_wf : DotDims.WF S256x3072 S3072x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S4096x3072.size a
  hwx0_0 : ∀ i : grid0.Coords, EltTy.bits .bf16 = 32 ∨ (Rect.block (s := S4096x3072) S256x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x256.size a ≤ S3072x2048.size a
  hwx0_1 : ∀ i : grid0.Coords, EltTy.bits .f32 = 32 ∨ (Rect.block (s := S3072x2048) S3072x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x256.size a ≤ S3072x2048.size a
  hwx0_2 : ∀ i : grid0.Coords, EltTy.bits .f32 = 32 ∨ (Rect.block (s := S3072x2048) S3072x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x256.size a ≤ S3072x2048.size a
  hwx0_3 : ∀ i : grid0.Coords, EltTy.bits .f32 = 32 ∨ (Rect.block (s := S3072x2048) S3072x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3072x256.size a ≤ S3072x2048.size a
  hwx0_4 : ∀ i : grid0.Coords, EltTy.bits .f32 = 32 ∨ (Rect.block (s := S3072x2048) S3072x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S4096x2048.size a
  hwx0_9 : ∀ i : grid0.Coords, EltTy.bits .f32 = 32 ∨ (Rect.block (s := S4096x2048) S256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S4096x2048.size a
  hwx0_10 : ∀ i : grid0.Coords, EltTy.bits .f32 = 32 ∨ (Rect.block (s := S4096x2048) S256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S4096x2048.size a
  hwx0_11 : ∀ i : grid0.Coords, EltTy.bits .f32 = 32 ∨ (Rect.block (s := S4096x2048) S256x256.size (cc0_transform_11 i) (hinb0_11 i)).WholeWords (EltTy.packing .f32)

variable [Facts₀]

def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf
def dot_S256x3072_S3072x256_S256x256_1_0_0_1_n_n : DotDims S256x3072 S3072x256 S256x256 where
  lhsContracting := [1]
  rhsContracting := [0]
  lhsNonContracting := [0]
  rhsNonContracting := [1]
  lhsBatch := []
  rhsBatch := []
  wf := dot_S256x3072_S3072x256_S256x256_1_0_0_1_n_n_wf

abbrev win0_0 : Pipeline.Window sig grid0 :=
  Pipeline.Window.ofSpec (Memref.whole main_call0_v4) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3072x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S3072x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S3072x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S3072x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v7) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v8) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S256x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where
  halias0_11 : Pipeline.Aliased win0 9 11

variable [Facts]
-- ==== ReferenceIdeal.lean ====
abbrev S4096x1 : Shape := ⟨2, ![4096, 1]⟩
abbrev S4096x2048 : Shape := ⟨2, ![4096, 2048]⟩
abbrev S50257x1024 : Shape := ⟨2, ![50257, 1024]⟩
abbrev S3072x2048 : Shape := ⟨2, ![3072, 2048]⟩
abbrev S2048 : Shape := ⟨1, ![2048]⟩
abbrev S4096 : Shape := ⟨1, ![4096]⟩
abbrev S_ : Shape := ⟨0, ![]⟩
abbrev S4096x1024 : Shape := ⟨2, ![4096, 1024]⟩
abbrev S4096x3072 : Shape := ⟨2, ![4096, 3072]⟩
abbrev S3072x8192 : Shape := ⟨2, ![3072, 8192]⟩
abbrev S8192 : Shape := ⟨1, ![8192]⟩
abbrev S4096x8192 : Shape := ⟨2, ![4096, 8192]⟩
abbrev S1x8192 : Shape := ⟨2, ![1, 8192]⟩

abbrev nBuf : Space → Nat
  | .hbm => 63
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S4096x2048, .f32⟩
  | .hbm, ⟨2, _⟩ => ⟨S4096x2048, .f32⟩
  | .hbm, ⟨3, _⟩ => ⟨S50257x1024, .f32⟩
  | .hbm, ⟨4, _⟩ => ⟨S3072x2048, .f32⟩
  | .hbm, ⟨5, _⟩ => ⟨S2048, .f32⟩
  | .hbm, ⟨6, _⟩ => ⟨S3072x2048, .f32⟩
  | .hbm, ⟨7, _⟩ => ⟨S2048, .f32⟩
  | .hbm, ⟨8, _⟩ => ⟨S3072x2048, .f32⟩
  | .hbm, ⟨9, _⟩ => ⟨S2048, .f32⟩
  | .hbm, ⟨10, _⟩ => ⟨S3072x2048, .f32⟩
  | .hbm, ⟨11, _⟩ => ⟨S2048, .f32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x1024, .f32⟩
  | .hbm, ⟨22, _⟩ => ⟨S4096x3072, .f32⟩
  | .hbm, ⟨23, _⟩ => ⟨S3072x8192, .f32⟩
  | .hbm, ⟨24, _⟩ => ⟨S8192, .f32⟩
  | .hbm, ⟨25, _⟩ => ⟨S4096x8192, .f32⟩
  | .hbm, ⟨26, _⟩ => ⟨S1x8192, .f32⟩
  | .hbm, ⟨27, _⟩ => ⟨S4096x8192, .f32⟩
  | .hbm, ⟨28, _⟩ => ⟨S4096x8192, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1024_S4096x2048_S4096x3072_d1 : Shape.Concatenates [S4096x1024, S4096x2048] S4096x3072 1
  concatenates_S3072x2048_S3072x2048_S3072x2048_S3072x2048_S3072x8192_d1 : Shape.Concatenates [S3072x2048, S3072x2048, S3072x2048, S3072x2048] S3072x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  gather_S50257x1024_S4096x1_S4096x1024_1_0_n_n_0_1_11024_wf : GatherDims.WF S50257x1024 S4096x1 S4096x1024 [1] [0] [] [0] [] 1 ![1, 1024]
  dot_S4096x3072_S3072x8192_S4096x8192_1_0_0_1_n_n_wf : DotDims.WF S4096x3072 S3072x8192 S4096x8192 [1] [0] [0] [1] [] []

variable [Facts₀]

def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf
def dot_S4096x3072_S3072x8192_S4096x8192_1_0_0_1_n_n : DotDims S4096x3072 S3072x8192 S4096x8192 where
  lhsContracting := [1]
  rhsContracting := [0]
  lhsNonContracting := [0]
  rhsNonContracting := [1]
  lhsBatch := []
  rhsBatch := []
  wf := dot_S4096x3072_S3072x8192_S4096x8192_1_0_0_1_n_n_wf

class Facts : Prop extends Facts₀ where

variable [Facts]
-- ==== Proof.Spec.lean ====
/-
  The LSTM cell as one function of its twelve arrays, on the extended reals.

  The row input X is, for a batch row b, the embedding row the token x[b] names followed by the previous hidden
  state h[b]: X = [ emb[w(x[b])] | h[b] ], a [4096, 3072] array; the row index w(v) is v + 50257 for a negative v and v
  otherwise, the gather reading it clamped into the table. For a gate with weight W ([3072, 2048]) and bias β ([2048]) the
  pre-activation at (b, n) is
      pre X W β b n = (Σ k, X b k · W k n) + β n,
  and the cell is
      cellC = σ(pre_f) · c + σ(pre_i) · tanh(pre_g),      cellH = σ(pre_o) · tanh(cellC),
  with σ x = 1 / (1 + e^(-x)).
-/
import Idealize.ShloMosaic.PureOps
import Idealize.ShloMosaic.PureOps.Ideal
import Idealize.ShloMosaic.Lib.ValueIdx

noncomputable section

namespace Cert.LstmSpec

open Idealize.ShloMosaic Idealize.ShloMosaic.ValueIdx

abbrev S_ : Shape := ⟨0, ![]⟩
abbrev S4096 : Shape := ⟨1, ![4096]⟩
abbrev S2048 : Shape := ⟨1, ![2048]⟩
abbrev S4096x1 : Shape := ⟨2, ![4096, 1]⟩
abbrev S4096x1024 : Shape := ⟨2, ![4096, 1024]⟩
abbrev S4096x2048 : Shape := ⟨2, ![4096, 2048]⟩
abbrev S4096x3072 : Shape := ⟨2, ![4096, 3072]⟩
abbrev S50257x1024 : Shape := ⟨2, ![50257, 1024]⟩
abbrev S3072x2048 : Shape := ⟨2, ![3072, 2048]⟩

/-! ## The row input -/

/-- The table row each token names: a negative token counts from the table's end. -/
def wrapIdx (x : IVec S4096x1 32) : IVec S4096x1 32 :=
  broadcastInDim S4096x1 ![0] (by decide)
    (select (cmpi .slt (shapeCast S4096 x (by decide)) (broadcastInDim S4096 ![] (by decide) (constantI S_ 32 0#32)))
      (addi (shapeCast S4096 x (by decide)) (broadcastInDim S4096 ![] (by decide) (constantI S_ 32 50257#32)))
      (shapeCast S4096 x (by decide)))

/-- Gathering whole rows of a [50257, 1024] table by one row index per batch row. -/
def rowDims : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := by decide

/-- The embedding rows the tokens name. -/
def rows (emb : FVec Ideal S50257x1024 .f32) (x : IVec S4096x1 32) : FVec Ideal S4096x1024 .f32 :=
  Host.gather rowDims emb (wrapIdx x)

/-- A [4096, 1024] and a [4096, 2048] array side by side make a [4096, 3072] one. -/
theorem xin_shapes : Shape.Concatenates [S4096x1024, S4096x2048] S4096x3072 1 := by decide

/-- The row input: the embedding row, then the previous hidden state. -/
def xin (emb : FVec Ideal S50257x1024 .f32) (x : IVec S4096x1 32) (h : FVec Ideal S4096x2048 .f32) : S4096x3072.Idx → EReal :=
  concatenate S4096x3072 1 [⟨S4096x1024, rows emb x⟩, ⟨S4096x2048, h⟩] xin_shapes

/-! ## The cell -/

/-- A gate's pre-activation at (b, n): row b of X against column n of W, plus the bias. -/
def pre (X : S4096x3072.Idx → EReal) (W : S3072x2048.Idx → EReal) (β : S2048.Idx → EReal) (b : Fin 4096) (n : Fin 2048) : EReal :=
  (∑ k : Fin 3072, X (ix2 b k) * W (ix2 k n)) + β (ix1 n)

/-- The new cell state at (b, n). -/
def cellC (X : S4096x3072.Idx → EReal) (Wf Wi Wg : S3072x2048.Idx → EReal) (βf βi βg : S2048.Idx → EReal)
    (c : S4096x2048.Idx → EReal) (b : Fin 4096) (n : Fin 2048) : EReal :=
  Ideal.logistic (pre X Wf βf b n) * c (ix2 b n) + Ideal.logistic (pre X Wi βi b n) * Ideal.tanh (pre X Wg βg b n)

/-- The new hidden state at (b, n). -/
def cellH (X : S4096x3072.Idx → EReal) (Wf Wi Wg Wo : S3072x2048.Idx → EReal) (βf βi βg βo : S2048.Idx → EReal)
    (c : S4096x2048.Idx → EReal) (b : Fin 4096) (n : Fin 2048) : EReal :=
  Ideal.logistic (pre X Wo βo b n) * Ideal.tanh (cellC X Wf Wi Wg βf βi βg c b n)

/-- The new cell state as an array of the twelve arguments. -/
def outC (x : IVec S4096x1 32) (h c : FVec Ideal S4096x2048 .f32) (emb : FVec Ideal S50257x1024 .f32)
    (Wf : FVec Ideal S3072x2048 .f32) (bf : FVec Ideal S2048 .f32) (Wi : FVec Ideal S3072x2048 .f32) (bi : FVec Ideal S2048 .f32)
    (Wc : FVec Ideal S3072x2048 .f32) (bc : FVec Ideal S2048 .f32) (Wo : FVec Ideal S3072x2048 .f32) (bo : FVec Ideal S2048 .f32) :
    S4096x2048.Idx → EReal :=
  fun i => cellC (xin emb x h) Wf Wi Wc bf bi bc c (i 0) (i 1)

/-- The new hidden state as an array of the twelve arguments. -/
def outH (x : IVec S4096x1 32) (h c : FVec Ideal S4096x2048 .f32) (emb : FVec Ideal S50257x1024 .f32)
    (Wf : FVec Ideal S3072x2048 .f32) (bf : FVec Ideal S2048 .f32) (Wi : FVec Ideal S3072x2048 .f32) (bi : FVec Ideal S2048 .f32)
    (Wc : FVec Ideal S3072x2048 .f32) (bc : FVec Ideal S2048 .f32) (Wo : FVec Ideal S3072x2048 .f32) (bo : FVec Ideal S2048 .f32) :
    S4096x2048.Idx → EReal :=
  fun i => cellH (xin emb x h) Wf Wi Wc Wo bf bi bc bo c (i 0) (i 1)

theorem outC_ix2 (x h c emb Wf bf Wi bi Wc bc Wo bo) (b : Fin 4096) (n : Fin 2048) :
    outC x h c emb Wf bf Wi bi Wc bc Wo bo (ix2 b n) = cellC (xin emb x h) Wf Wi Wc bf bi bc c b n := rfl

theorem outH_ix2 (x h c emb Wf bf Wi bi Wc bc Wo bo) (b : Fin 4096) (n : Fin 2048) :
    outH x h c emb Wf bf Wi bi Wc bc Wo bo (ix2 b n) = cellH (xin emb x h) Wf Wi Wc Wo bf bi bc bo c b n := rfl

end Cert.LstmSpec

end
-- ==== Proof.Pieces.lean ====
/-
  What one grid point of the cell kernel leaves in its two output blocks and its four weight scratches, as pure
  terms of the blocks it loads.

  At a point whose batch-tile coordinate is zero the body first stores each f32 weight block, rounded to bf16, into its
  scratch, and then computes from the scratches; at every other point it computes from what the scratches already hold.
  Either way the hidden-state block is o · tanh(f · c + i · tanh g) and the cell-state block f · c + i · tanh g, with
  f, i, o the logistic and g the plain affine image of the row-input block under a gate's weights and bias.
-/
import proofs.«425692_j82154134438018_3_alg».proof.Proof.Gen.KernelIdeal.Frame
import Idealize.ShloMosaic.Lib.Pipeline.Value

set_option maxRecDepth 16384

noncomputable section

namespace Cert.KernelIdeal.LstmPieces

open Cert.KernelIdeal Cert.KernelIdeal.Gen
open Idealize.ShloMosaic Idealize.ShloMosaic.TcCoe Idealize.ShloMosaic.Tactic Idealize.SL.Sem

variable {F : FTy → Type} [FloatOps F]

/-- The offsets of a whole-buffer rectangle are all zero. -/
theorem hz : (![0, 0] : Fin 2 → Nat) = fun _ => 0 := funext fun a => by fin_cases a <;> rfl

/-! ## A point that recasts the weights -/

/-- The first weight scratch ends holding the first f32 weight block rounded to bf16: its one store covers the whole
    scratch, and the block it rounds is the whole of the loaded buffer. -/
theorem sout_A_0 (c : Dev nD) (i : grid0.Coords) (arg2 : Memref sig .tc .vmem S256x3072 .bf16) (harg2 : arg2.IsWhole) (arg3 : Memref sig .tc .vmem S3072x256 .f32) (harg3 : arg3.IsWhole) (arg4 : Memref sig .tc .vmem S3072x256 .f32) (harg4 : arg4.IsWhole) (arg5 : Memref sig .tc .vmem S3072x256 .f32) (harg5 : arg5.IsWhole) (arg6 : Memref sig .tc .vmem S3072x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S3072x256 .bf16) (harg14 : arg14.IsWhole) (arg15 : Memref sig .tc .vmem S3072x256 .bf16) (harg15 : arg15.IsWhole) (arg16 : Memref sig .tc .vmem S3072x256 .bf16) (harg16 : arg16.IsWhole) (arg17 : Memref sig .tc .vmem S3072x256 .bf16) (harg17 : arg17.IsWhole) (hc0 : cond0_0 i)
    (x0 : Vec F S256x3072 .bf16) (x1 : Vec F S3072x256 .f32) (x2 : Vec F S3072x256 .f32) (x3 : Vec F S3072x256 .f32) (x4 : Vec F S3072x256 .f32) (x5 : Vec F S1x256 .f32) (x6 : Vec F S1x256 .f32) (x7 : Vec F S1x256 .f32) (x8 : Vec F S1x256 .f32) (x9 : Vec F S256x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = k0_pay3 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_unit_zero hz]
  simp only [View.readAt_eq_ld, harg3.read_unread, View.ld_unit_zero (S := S3072x256) hz]

/-- Likewise the second scratch holds the second weight block rounded to bf16. -/
theorem sout_A_1 (c : Dev nD) (i : grid0.Coords) (arg2 : Memref sig .tc .vmem S256x3072 .bf16) (harg2 : arg2.IsWhole) (arg3 : Memref sig .tc .vmem S3072x256 .f32) (harg3 : arg3.IsWhole) (arg4 : Memref sig .tc .vmem S3072x256 .f32) (harg4 : arg4.IsWhole) (arg5 : Memref sig .tc .vmem S3072x256 .f32) (harg5 : arg5.IsWhole) (arg6 : Memref sig .tc .vmem S3072x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S3072x256 .bf16) (harg14 : arg14.IsWhole) (arg15 : Memref sig .tc .vmem S3072x256 .bf16) (harg15 : arg15.IsWhole) (arg16 : Memref sig .tc .vmem S3072x256 .bf16) (harg16 : arg16.IsWhole) (arg17 : Memref sig .tc .vmem S3072x256 .bf16) (harg17 : arg17.IsWhole) (hc0 : cond0_0 i)
    (x0 : Vec F S256x3072 .bf16) (x1 : Vec F S3072x256 .f32) (x2 : Vec F S3072x256 .f32) (x3 : Vec F S3072x256 .f32) (x4 : Vec F S3072x256 .f32) (x5 : Vec F S1x256 .f32) (x6 : Vec F S1x256 .f32) (x7 : Vec F S1x256 .f32) (x8 : Vec F S1x256 .f32) (x9 : Vec F S256x256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = k0_pay4 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_unit_zero hz]
  simp only [View.readAt_eq_ld, harg4.read_unread, View.ld_unit_zero (S := S3072x256) hz]

/-- Likewise the third scratch holds the third weight block rounded to bf16. -/
theorem sout_A_2 (c : Dev nD) (i : grid0.Coords) (arg2 : Memref sig .tc .vmem S256x3072 .bf16) (harg2 : arg2.IsWhole) (arg3 : Memref sig .tc .vmem S3072x256 .f32) (harg3 : arg3.IsWhole) (arg4 : Memref sig .tc .vmem S3072x256 .f32) (harg4 : arg4.IsWhole) (arg5 : Memref sig .tc .vmem S3072x256 .f32) (harg5 : arg5.IsWhole) (arg6 : Memref sig .tc .vmem S3072x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S3072x256 .bf16) (harg14 : arg14.IsWhole) (arg15 : Memref sig .tc .vmem S3072x256 .bf16) (harg15 : arg15.IsWhole) (arg16 : Memref sig .tc .vmem S3072x256 .bf16) (harg16 : arg16.IsWhole) (arg17 : Memref sig .tc .vmem S3072x256 .bf16) (harg17 : arg17.IsWhole) (hc0 : cond0_0 i)
    (x0 : Vec F S256x3072 .bf16) (x1 : Vec F S3072x256 .f32) (x2 : Vec F S3072x256 .f32) (x3 : Vec F S3072x256 .f32) (x4 : Vec F S3072x256 .f32) (x5 : Vec F S1x256 .f32) (x6 : Vec F S1x256 .f32) (x7 : Vec F S1x256 .f32) (x8 : Vec F S1x256 .f32) (x9 : Vec F S256x256 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = k0_pay5 x3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_unit_zero hz]
  simp only [View.readAt_eq_ld, harg5.read_unread, View.ld_unit_zero (S := S3072x256) hz]

/-- Likewise the fourth scratch holds the fourth weight block rounded to bf16. -/
theorem sout_A_3 (c : Dev nD) (i : grid0.Coords) (arg2 : Memref sig .tc .vmem S256x3072 .bf16) (harg2 : arg2.IsWhole) (arg3 : Memref sig .tc .vmem S3072x256 .f32) (harg3 : arg3.IsWhole) (arg4 : Memref sig .tc .vmem S3072x256 .f32) (harg4 : arg4.IsWhole) (arg5 : Memref sig .tc .vmem S3072x256 .f32) (harg5 : arg5.IsWhole) (arg6 : Memref sig .tc .vmem S3072x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S3072x256 .bf16) (harg14 : arg14.IsWhole) (arg15 : Memref sig .tc .vmem S3072x256 .bf16) (harg15 : arg15.IsWhole) (arg16 : Memref sig .tc .vmem S3072x256 .bf16) (harg16 : arg16.IsWhole) (arg17 : Memref sig .tc .vmem S3072x256 .bf16) (harg17 : arg17.IsWhole) (hc0 : cond0_0 i)
    (x0 : Vec F S256x3072 .bf16) (x1 : Vec F S3072x256 .f32) (x2 : Vec F S3072x256 .f32) (x3 : Vec F S3072x256 .f32) (x4 : Vec F S3072x256 .f32) (x5 : Vec F S1x256 .f32) (x6 : Vec F S1x256 .f32) (x7 : Vec F S1x256 .f32) (x8 : Vec F S1x256 .f32) (x9 : Vec F S256x256 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = k0_pay6 x4 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_unit_zero hz]
  simp only [View.readAt_eq_ld, harg6.read_unread, View.ld_unit_zero (S := S3072x256) hz]

/-- The cell-state block at a recasting point: each scratch read after its store gives back the rounded weight block,
    so the gates are taken over the rounded weights of this very point. -/
theorem out_A_11 (c : Dev nD) (i : grid0.Coords) (arg2 : Memref sig .tc .vmem S256x3072 .bf16) (harg2 : arg2.IsWhole) (arg3 : Memref sig .tc .vmem S3072x256 .f32) (harg3 : arg3.IsWhole) (arg4 : Memref sig .tc .vmem S3072x256 .f32) (harg4 : arg4.IsWhole) (arg5 : Memref sig .tc .vmem S3072x256 .f32) (harg5 : arg5.IsWhole) (arg6 : Memref sig .tc .vmem S3072x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S3072x256 .bf16) (harg14 : arg14.IsWhole) (arg15 : Memref sig .tc .vmem S3072x256 .bf16) (harg15 : arg15.IsWhole) (arg16 : Memref sig .tc .vmem S3072x256 .bf16) (harg16 : arg16.IsWhole) (arg17 : Memref sig .tc .vmem S3072x256 .bf16) (harg17 : arg17.IsWhole) (hc0 : cond0_0 i)
    (x0 : Vec F S256x3072 .bf16) (x1 : Vec F S3072x256 .f32) (x2 : Vec F S3072x256 .f32) (x3 : Vec F S3072x256 .f32) (x4 : Vec F S3072x256 .f32) (x5 : Vec F S1x256 .f32) (x6 : Vec F S1x256 .f32) (x7 : Vec F S1x256 .f32) (x8 : Vec F S1x256 .f32) (x9 : Vec F S256x256 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = k0_pay1 (k0_pay8 x0 (k0_pay5 x3) x7) (k0_pay9 x0 (k0_pay3 x1) x5) (k0_pay10 x0 (k0_pay4 x2) x6) x9 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.readCov_unit_zero (S := S3072x256) _ hz, View.ld_unit_zero (S := S256x3072) hz, View.ld_unit_zero (S := S3072x256) hz, View.ld_unit_zero (S := S1x256) hz, View.ld_unit_zero (S := S256x256) hz]

/-- The hidden-state block at a recasting point: the output gate times tanh of the new cell state, all four gates over
    the rounded weights of this very point. -/
theorem out_A_10 (c : Dev nD) (i : grid0.Coords) (arg2 : Memref sig .tc .vmem S256x3072 .bf16) (harg2 : arg2.IsWhole) (arg3 : Memref sig .tc .vmem S3072x256 .f32) (harg3 : arg3.IsWhole) (arg4 : Memref sig .tc .vmem S3072x256 .f32) (harg4 : arg4.IsWhole) (arg5 : Memref sig .tc .vmem S3072x256 .f32) (harg5 : arg5.IsWhole) (arg6 : Memref sig .tc .vmem S3072x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S3072x256 .bf16) (harg14 : arg14.IsWhole) (arg15 : Memref sig .tc .vmem S3072x256 .bf16) (harg15 : arg15.IsWhole) (arg16 : Memref sig .tc .vmem S3072x256 .bf16) (harg16 : arg16.IsWhole) (arg17 : Memref sig .tc .vmem S3072x256 .bf16) (harg17 : arg17.IsWhole) (hc0 : cond0_0 i)
    (x0 : Vec F S256x3072 .bf16) (x1 : Vec F S3072x256 .f32) (x2 : Vec F S3072x256 .f32) (x3 : Vec F S3072x256 .f32) (x4 : Vec F S3072x256 .f32) (x5 : Vec F S1x256 .f32) (x6 : Vec F S1x256 .f32) (x7 : Vec F S1x256 .f32) (x8 : Vec F S1x256 .f32) (x9 : Vec F S256x256 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9
      = k0_pay2 (k0_pay8 x0 (k0_pay5 x3) x7) (k0_pay9 x0 (k0_pay3 x1) x5) (k0_pay10 x0 (k0_pay4 x2) x6) (k0_pay11 x0 (k0_pay6 x4) x8) x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.readCov_unit_zero (S := S3072x256) _ hz, View.ld_unit_zero (S := S256x3072) hz, View.ld_unit_zero (S := S3072x256) hz, View.ld_unit_zero (S := S1x256) hz, View.ld_unit_zero (S := S256x256) hz]

/-! ## A point that reuses the scratches -/

/-- The cell-state block at a reusing point: the same expression, the gates taken over what the scratches already hold. -/
theorem out_B_11 (c : Dev nD) (i : grid0.Coords) (arg2 : Memref sig .tc .vmem S256x3072 .bf16) (harg2 : arg2.IsWhole) (arg3 : Memref sig .tc .vmem S3072x256 .f32) (harg3 : arg3.IsWhole) (arg4 : Memref sig .tc .vmem S3072x256 .f32) (harg4 : arg4.IsWhole) (arg5 : Memref sig .tc .vmem S3072x256 .f32) (harg5 : arg5.IsWhole) (arg6 : Memref sig .tc .vmem S3072x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S3072x256 .bf16) (harg14 : arg14.IsWhole) (arg15 : Memref sig .tc .vmem S3072x256 .bf16) (harg15 : arg15.IsWhole) (arg16 : Memref sig .tc .vmem S3072x256 .bf16) (harg16 : arg16.IsWhole) (arg17 : Memref sig .tc .vmem S3072x256 .bf16) (harg17 : arg17.IsWhole) (hc0 : ¬cond0_0 i)
    (x0 : Vec F S256x3072 .bf16) (x1 : Vec F S3072x256 .f32) (x2 : Vec F S3072x256 .f32) (x3 : Vec F S3072x256 .f32) (x4 : Vec F S3072x256 .f32) (x5 : Vec F S1x256 .f32) (x6 : Vec F S1x256 .f32) (x7 : Vec F S1x256 .f32) (x8 : Vec F S1x256 .f32) (x9 : Vec F S256x256 .f32) (xs0 : Vec F S3072x256 .bf16) (xs1 : Vec F S3072x256 .bf16) (xs2 : Vec F S3072x256 .bf16) (xs3 : Vec F S3072x256 .bf16) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 xs2 xs3 = k0_pay1 (k0_pay8 x0 xs2 x7) (k0_pay9 x0 xs0 x5) (k0_pay10 x0 xs1 x6) x9 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg7.read_unread, harg8.read_unread, harg9.read_unread, harg10.read_unread, harg11.read_unread, harg14.read_unread, harg15.read_unread, harg16.read_unread, harg17.read_unread, View.ld_unit_zero (S := S256x3072) hz, View.ld_unit_zero (S := S3072x256) hz, View.ld_unit_zero (S := S1x256) hz, View.ld_unit_zero (S := S256x256) hz]

/-- The hidden-state block at a reusing point: the same expression over what the scratches already hold. -/
theorem out_B_10 (c : Dev nD) (i : grid0.Coords) (arg2 : Memref sig .tc .vmem S256x3072 .bf16) (harg2 : arg2.IsWhole) (arg3 : Memref sig .tc .vmem S3072x256 .f32) (harg3 : arg3.IsWhole) (arg4 : Memref sig .tc .vmem S3072x256 .f32) (harg4 : arg4.IsWhole) (arg5 : Memref sig .tc .vmem S3072x256 .f32) (harg5 : arg5.IsWhole) (arg6 : Memref sig .tc .vmem S3072x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S3072x256 .bf16) (harg14 : arg14.IsWhole) (arg15 : Memref sig .tc .vmem S3072x256 .bf16) (harg15 : arg15.IsWhole) (arg16 : Memref sig .tc .vmem S3072x256 .bf16) (harg16 : arg16.IsWhole) (arg17 : Memref sig .tc .vmem S3072x256 .bf16) (harg17 : arg17.IsWhole) (hc0 : ¬cond0_0 i)
    (x0 : Vec F S256x3072 .bf16) (x1 : Vec F S3072x256 .f32) (x2 : Vec F S3072x256 .f32) (x3 : Vec F S3072x256 .f32) (x4 : Vec F S3072x256 .f32) (x5 : Vec F S1x256 .f32) (x6 : Vec F S1x256 .f32) (x7 : Vec F S1x256 .f32) (x8 : Vec F S1x256 .f32) (x9 : Vec F S256x256 .f32) (xs0 : Vec F S3072x256 .bf16) (xs1 : Vec F S3072x256 .bf16) (xs2 : Vec F S3072x256 .bf16) (xs3 : Vec F S3072x256 .bf16) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 xs2 xs3
      = k0_pay2 (k0_pay8 x0 xs2 x7) (k0_pay9 x0 xs0 x5) (k0_pay10 x0 xs1 x6) (k0_pay11 x0 xs3 x8) x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg7.read_unread, harg8.read_unread, harg9.read_unread, harg10.read_unread, harg11.read_unread, harg14.read_unread, harg15.read_unread, harg16.read_unread, harg17.read_unread, View.ld_unit_zero (S := S256x3072) hz, View.ld_unit_zero (S := S3072x256) hz, View.ld_unit_zero (S := S1x256) hz, View.ld_unit_zero (S := S256x256) hz]

end Cert.KernelIdeal.LstmPieces

end
-- ==== Proof.Payload.lean ====
/-
  The body's arithmetic read at one entry, on the extended reals.

  A gate's block at (p, q) is row p of the row-input block against column q of the gate's weight block, plus the bias
  entry of column q: a product into a zero accumulator is the plain sum over the 3072 contracted positions, rounding to
  bf16 is the identity here, and the bias row is repeated down the 256 rows.
-/
import proofs.«425692_j82154134438018_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.LstmPayload

open Cert.KernelIdeal Cert.KernelIdeal.Gen
open Idealize.ShloMosaic Idealize.ShloMosaic.ValueIdx

/-! ## Rounding a weight block to bf16 changes nothing here -/

theorem pay3_apply (v : Vec Ideal S3072x256 .f32) (y : S3072x256.Idx) : k0_pay3 (F := Ideal) v y = v y := by
  unfold k0_pay3
  rw [shapeCast_self]
  rfl
theorem pay4_apply (v : Vec Ideal S3072x256 .f32) (y : S3072x256.Idx) : k0_pay4 (F := Ideal) v y = v y := by
  unfold k0_pay4
  rw [shapeCast_self]
  rfl
theorem pay5_apply (v : Vec Ideal S3072x256 .f32) (y : S3072x256.Idx) : k0_pay5 (F := Ideal) v y = v y := by
  unfold k0_pay5
  rw [shapeCast_self]
  rfl
theorem pay6_apply (v : Vec Ideal S3072x256 .f32) (y : S3072x256.Idx) : k0_pay6 (F := Ideal) v y = v y := by
  unfold k0_pay6
  rw [shapeCast_self]
  rfl

/-! ## The product's operand indices: (p, k) on the left, (k, q) on the right -/

theorem lhs_0 (i : S256x256.Idx) (q : dot_S256x3072_S3072x256_S256x256_1_0_0_1_n_n.contr.Idx) : (dot_S256x3072_S3072x256_S256x256_1_0_0_1_n_n.lhsIdx i q 0).val = (i 0).val := by
  unfold DotDims.lhsIdx
  rw [dif_neg (show ¬(0 : Fin S256x3072.rank) ∈ dot_S256x3072_S3072x256_S256x256_1_0_0_1_n_n.lhsBatch by decide), dif_pos (show (0 : Fin S256x3072.rank) ∈ dot_S256x3072_S3072x256_S256x256_1_0_0_1_n_n.lhsNonContracting by decide)]
  rfl
theorem lhs_1 (i : S256x256.Idx) (q : dot_S256x3072_S3072x256_S256x256_1_0_0_1_n_n.contr.Idx) : (dot_S256x3072_S3072x256_S256x256_1_0_0_1_n_n.lhsIdx i q 1).val = (q ⟨0, by decide⟩).val :=
  dot_S256x3072_S3072x256_S256x256_1_0_0_1_n_n.lhsIdx_val_of_single rfl i q
theorem rhs_0 (i : S256x256.Idx) (q : dot_S256x3072_S3072x256_S256x256_1_0_0_1_n_n.contr.Idx) : (dot_S256x3072_S3072x256_S256x256_1_0_0_1_n_n.rhsIdx i q 0).val = (q ⟨0, by decide⟩).val :=
  dot_S256x3072_S3072x256_S256x256_1_0_0_1_n_n.rhsIdx_val_of_single rfl i q
theorem rhs_1 (i : S256x256.Idx) (q : dot_S256x3072_S3072x256_S256x256_1_0_0_1_n_n.contr.Idx) : (dot_S256x3072_S3072x256_S256x256_1_0_0_1_n_n.rhsIdx i q 1).val = (i 1).val := by
  unfold DotDims.rhsIdx
  rw [dif_neg (show ¬(1 : Fin S3072x256.rank) ∈ dot_S256x3072_S3072x256_S256x256_1_0_0_1_n_n.rhsBatch by decide), dif_pos (show (1 : Fin S3072x256.rank) ∈ dot_S256x3072_S3072x256_S256x256_1_0_0_1_n_n.rhsNonContracting by decide)]
  rfl

/-- The product into a zero accumulator, at (p, q): the sum over the contracted position. -/
theorem dot_apply (X : FVec Ideal S256x3072 .bf16) (S : FVec Ideal S3072x256 .bf16) (p q : Fin 256) :
    matmul (F := Ideal) dot_S256x3072_S3072x256_S256x256_1_0_0_1_n_n none X S (constant S256x256 .f32 0x00000000#32) (ix2 p q)
      = ∑ k : Fin 3072, X (ix2 p k) * S (ix2 k q) := by
  show FloatOps.matmul dot_S256x3072_S3072x256_S256x256_1_0_0_1_n_n none X S (constant S256x256 .f32 0x00000000#32) (ix2 p q) = _
  rw [Ideal.matmul_constant_zero_apply, ← Equiv.sum_comp (contrEquiv1 dot_S256x3072_S3072x256_S256x256_1_0_0_1_n_n 3072 rfl rfl).symm]
  refine Finset.sum_congr rfl fun k _ => ?_
  have hk := contrEquiv1_symm_val dot_S256x3072_S3072x256_S256x256_1_0_0_1_n_n 3072 rfl rfl k
  have el : dot_S256x3072_S3072x256_S256x256_1_0_0_1_n_n.lhsIdx (ix2 p q) ((contrEquiv1 dot_S256x3072_S3072x256_S256x256_1_0_0_1_n_n 3072 rfl rfl).symm k) = ix2 p k := funext fun a => Fin.ext (by
    match a with
    | ⟨0, _⟩ => exact lhs_0 _ _
    | ⟨1, _⟩ => exact (lhs_1 _ _).trans hk)
  have er : dot_S256x3072_S3072x256_S256x256_1_0_0_1_n_n.rhsIdx (ix2 p q) ((contrEquiv1 dot_S256x3072_S3072x256_S256x256_1_0_0_1_n_n 3072 rfl rfl).symm k) = ix2 k q := funext fun a => Fin.ext (by
    match a with
    | ⟨0, _⟩ => exact (rhs_0 _ _).trans hk
    | ⟨1, _⟩ => exact rhs_1 _ _)
  rw [el, er]

/-- The bias row repeated down the rows, at (p, q): the row's entry q. -/
theorem bias_apply (β : Vec Ideal S1x256 .f32) (p q : Fin 256) :
    broadcastTo S256x256 (shapeCast S1x256 β shapeCasts_S1x256_S1x256) broadcasts_S1x256_S256x256 (ix2 p q) = β (ix2 (0 : Fin 1) q) := by
  rw [shapeCast_self]
  exact broadcastTo_apply β broadcasts_S1x256_S256x256 (ix2 p q) (ix2 (0 : Fin 1) q) (fun a => by
    match a with
    | ⟨0, _⟩ => rfl
    | ⟨1, _⟩ => rfl)

/-- A gate's affine image at (p, q). -/
theorem gate_apply (X : Vec Ideal S256x3072 .bf16) (S : FVec Ideal S3072x256 .bf16) (β : Vec Ideal S1x256 .f32) (p q : Fin 256) :
    addf (matmul (F := Ideal) dot_S256x3072_S3072x256_S256x256_1_0_0_1_n_n none (k0_pay7 (F := Ideal) X) S (constant S256x256 .f32 0x00000000#32))
        (broadcastTo S256x256 (shapeCast S1x256 β shapeCasts_S1x256_S1x256) broadcasts_S1x256_S256x256) (ix2 p q)
      = (∑ k : Fin 3072, X (ix2 p k) * S (ix2 k q)) + β (ix2 (0 : Fin 1) q) := by
  have e7 : k0_pay7 (F := Ideal) X = X := by unfold k0_pay7; exact shapeCast_self _ _
  rw [e7, addf_apply, dot_apply, bias_apply]

/-- The candidate's pre-activation at (p, q). -/
theorem pay8_apply (X : Vec Ideal S256x3072 .bf16) (S : Vec Ideal S3072x256 .bf16) (β : Vec Ideal S1x256 .f32) (p q : Fin 256) :
    k0_pay8 (F := Ideal) X S β (ix2 p q) = (∑ k : Fin 3072, X (ix2 p k) * S (ix2 k q)) + β (ix2 (0 : Fin 1) q) := by
  unfold k0_pay8
  exact gate_apply X S β p q

/-- The forget gate at (p, q). -/
theorem pay9_apply (X : Vec Ideal S256x3072 .bf16) (S : Vec Ideal S3072x256 .bf16) (β : Vec Ideal S1x256 .f32) (p q : Fin 256) :
    k0_pay9 (F := Ideal) X S β (ix2 p q) = Ideal.logistic ((∑ k : Fin 3072, X (ix2 p k) * S (ix2 k q)) + β (ix2 (0 : Fin 1) q)) := by
  unfold k0_pay9
  exact congrArg Ideal.logistic (gate_apply X S β p q)

/-- The input gate at (p, q). -/
theorem pay10_apply (X : Vec Ideal S256x3072 .bf16) (S : Vec Ideal S3072x256 .bf16) (β : Vec Ideal S1x256 .f32) (p q : Fin 256) :
    k0_pay10 (F := Ideal) X S β (ix2 p q) = Ideal.logistic ((∑ k : Fin 3072, X (ix2 p k) * S (ix2 k q)) + β (ix2 (0 : Fin 1) q)) := by
  unfold k0_pay10
  exact congrArg Ideal.logistic (gate_apply X S β p q)

/-- The output gate at (p, q). -/
theorem pay11_apply (X : Vec Ideal S256x3072 .bf16) (S : Vec Ideal S3072x256 .bf16) (β : Vec Ideal S1x256 .f32) (p q : Fin 256) :
    k0_pay11 (F := Ideal) X S β (ix2 p q) = Ideal.logistic ((∑ k : Fin 3072, X (ix2 p k) * S (ix2 k q)) + β (ix2 (0 : Fin 1) q)) := by
  unfold k0_pay11
  exact congrArg Ideal.logistic (gate_apply X S β p q)

/-- The new cell state's block, entry by entry. -/
theorem pay1_apply (g f i : FVec Ideal S256x256 .f32) (c : Vec Ideal S256x256 .f32) (y : S256x256.Idx) :
    k0_pay1 (F := Ideal) g f i c y = f y * c y + i y * Ideal.tanh (g y) := rfl

/-- The new hidden state's block, entry by entry. -/
theorem pay2_apply (g f i o : FVec Ideal S256x256 .f32) (c : Vec Ideal S256x256 .f32) (y : S256x256.Idx) :
    k0_pay2 (F := Ideal) g f i o c y = o y * Ideal.tanh (k0_pay1 (F := Ideal) g f i c y) := rfl

end Cert.KernelIdeal.LstmPayload

end
-- ==== Proof.Blocks.lean ====
/-
  Where a window's block sits in its array.

  The grid has 8 × 16 points; point t has hidden-tile coordinate t / 16 and batch-tile coordinate t % 16. The row-input
  window's block at t is rows 256·(t % 16) … of the [4096, 3072] array, a weight window's block is columns 256·(t / 16) …
  of a [3072, 2048] array, a bias window's block the same columns of a [1, 2048] row, and the cell-state window's and
  the two outputs' blocks are rows 256·(t % 16) … and columns 256·(t / 16) … of a [4096, 2048] array.
-/
import proofs.«425692_j82154134438018_3_alg».proof.Proof.Gen.KernelIdeal.Frame
import Idealize.ShloMosaic.Lib.ValueIdx
import Idealize.ShloMosaic.Lib.Pipeline.Value

set_option maxRecDepth 16384

noncomputable section

namespace Cert.KernelIdeal.LstmBlocks

open Cert.KernelIdeal Cert.KernelIdeal.Gen
open Idealize.ShloMosaic Idealize.ShloMosaic.TcCoe Idealize.ShloMosaic.ValueIdx Idealize.SL.Sem

/-- Row 256·(n % 16) + p of a 4096-row array. -/
def rowAt (n : ℕ) (p : Fin 256) : Fin 4096 := ⟨(256 * (n % 16) + p.val) % 4096, Nat.mod_lt _ (by decide)⟩

/-- Column 256·(n / 16) + q of a 2048-column array. -/
def colAt (n : ℕ) (q : Fin 256) : Fin 2048 := ⟨(256 * (n / 16) + q.val) % 2048, Nat.mod_lt _ (by decide)⟩

/-- The printed index maps, decided once over the 128 grid points. -/
theorem idx_facts : ∀ t : Fin cfg0.N,
    (win0_0.index t (0 : Fin 2) = t.val % 16 ∧ win0_0.index t (1 : Fin 2) = 0)
    ∧ (win0_1.index t (0 : Fin 2) = 0 ∧ win0_1.index t (1 : Fin 2) = t.val / 16)
    ∧ (win0_2.index t (0 : Fin 2) = 0 ∧ win0_2.index t (1 : Fin 2) = t.val / 16)
    ∧ (win0_3.index t (0 : Fin 2) = 0 ∧ win0_3.index t (1 : Fin 2) = t.val / 16)
    ∧ (win0_4.index t (0 : Fin 2) = 0 ∧ win0_4.index t (1 : Fin 2) = t.val / 16)
    ∧ (win0_5.index t (0 : Fin 2) = 0 ∧ win0_5.index t (1 : Fin 2) = t.val / 16)
    ∧ (win0_6.index t (0 : Fin 2) = 0 ∧ win0_6.index t (1 : Fin 2) = t.val / 16)
    ∧ (win0_7.index t (0 : Fin 2) = 0 ∧ win0_7.index t (1 : Fin 2) = t.val / 16)
    ∧ (win0_8.index t (0 : Fin 2) = 0 ∧ win0_8.index t (1 : Fin 2) = t.val / 16)
    ∧ (win0_9.index t (0 : Fin 2) = t.val % 16 ∧ win0_9.index t (1 : Fin 2) = t.val / 16)
    ∧ (win0_10.index t (0 : Fin 2) = t.val % 16 ∧ win0_10.index t (1 : Fin 2) = t.val / 16)
    ∧ (win0_11.index t (0 : Fin 2) = t.val % 16 ∧ win0_11.index t (1 : Fin 2) = t.val / 16) :=
  (by decide +kernel : ∀ t : Fin grid0.N, _)

theorem t_lt (t : Fin cfg0.N) : t.val < 128 := lt_of_lt_of_eq t.isLt (show cfg0.N = 128 from N_0)

/-- The row-input window's block at point t, read off an array. -/
theorem read_x (A : S4096x3072.Idx → EReal) (t : Fin cfg0.N) (p : Fin 256) (k : Fin 3072) :
    ((cfg0.win 0).blk t).view.read (Elt Ideal) A (ix2 p k) = A (ix2 (rowAt t.val p) k) := by
  rw [View.read_apply]
  refine congrArg A (funext fun a => Fin.ext ?_)
  have ht := t_lt t
  obtain ⟨⟨e0, e1⟩, -⟩ := idx_facts t
  match a with
  | ⟨0, _⟩ => show win0_0.index t (0 : Fin 2) * 256 + 1 * p.val = (256 * (t.val % 16) + p.val) % 4096; omega
  | ⟨1, _⟩ => show win0_0.index t (1 : Fin 2) * 3072 + 1 * k.val = k.val; omega

/-- Weight window 1's block at point t, read off an array. -/
theorem read_w1 (A : S3072x2048.Idx → EReal) (t : Fin cfg0.N) (k : Fin 3072) (q : Fin 256) :
    ((cfg0.win 1).blk t).view.read (Elt Ideal) A (ix2 k q) = A (ix2 k (colAt t.val q)) := by
  rw [View.read_apply]
  refine congrArg A (funext fun a => Fin.ext ?_)
  have ht := t_lt t
  obtain ⟨e0, e1⟩ := (idx_facts t).2.1
  match a with
  | ⟨0, _⟩ => show win0_1.index t (0 : Fin 2) * 3072 + 1 * k.val = k.val; omega
  | ⟨1, _⟩ => show win0_1.index t (1 : Fin 2) * 256 + 1 * q.val = (256 * (t.val / 16) + q.val) % 2048; omega

/-- Weight window 2's block at point t, read off an array. -/
theorem read_w2 (A : S3072x2048.Idx → EReal) (t : Fin cfg0.N) (k : Fin 3072) (q : Fin 256) :
    ((cfg0.win 2).blk t).view.read (Elt Ideal) A (ix2 k q) = A (ix2 k (colAt t.val q)) := by
  rw [View.read_apply]
  refine congrArg A (funext fun a => Fin.ext ?_)
  have ht := t_lt t
  obtain ⟨e0, e1⟩ := (idx_facts t).2.2.1
  match a with
  | ⟨0, _⟩ => show win0_2.index t (0 : Fin 2) * 3072 + 1 * k.val = k.val; omega
  | ⟨1, _⟩ => show win0_2.index t (1 : Fin 2) * 256 + 1 * q.val = (256 * (t.val / 16) + q.val) % 2048; omega

/-- Weight window 3's block at point t, read off an array. -/
theorem read_w3 (A : S3072x2048.Idx → EReal) (t : Fin cfg0.N) (k : Fin 3072) (q : Fin 256) :
    ((cfg0.win 3).blk t).view.read (Elt Ideal) A (ix2 k q) = A (ix2 k (colAt t.val q)) := by
  rw [View.read_apply]
  refine congrArg A (funext fun a => Fin.ext ?_)
  have ht := t_lt t
  obtain ⟨e0, e1⟩ := (idx_facts t).2.2.2.1
  match a with
  | ⟨0, _⟩ => show win0_3.index t (0 : Fin 2) * 3072 + 1 * k.val = k.val; omega
  | ⟨1, _⟩ => show win0_3.index t (1 : Fin 2) * 256 + 1 * q.val = (256 * (t.val / 16) + q.val) % 2048; omega

/-- Weight window 4's block at point t, read off an array. -/
theorem read_w4 (A : S3072x2048.Idx → EReal) (t : Fin cfg0.N) (k : Fin 3072) (q : Fin 256) :
    ((cfg0.win 4).blk t).view.read (Elt Ideal) A (ix2 k q) = A (ix2 k (colAt t.val q)) := by
  rw [View.read_apply]
  refine congrArg A (funext fun a => Fin.ext ?_)
  have ht := t_lt t
  obtain ⟨e0, e1⟩ := (idx_facts t).2.2.2.2.1
  match a with
  | ⟨0, _⟩ => show win0_4.index t (0 : Fin 2) * 3072 + 1 * k.val = k.val; omega
  | ⟨1, _⟩ => show win0_4.index t (1 : Fin 2) * 256 + 1 * q.val = (256 * (t.val / 16) + q.val) % 2048; omega

/-- Bias window 5's block at point t, read off a [1, 2048] row. -/
theorem read_b5 (A : S1x2048.Idx → EReal) (t : Fin cfg0.N) (q : Fin 256) :
    ((cfg0.win 5).blk t).view.read (Elt Ideal) A (ix2 (0 : Fin 1) q) = A (ix2 (0 : Fin 1) (colAt t.val q)) := by
  rw [View.read_apply]
  refine congrArg A (funext fun a => Fin.ext ?_)
  have ht := t_lt t
  obtain ⟨e0, e1⟩ := (idx_facts t).2.2.2.2.2.1
  match a with
  | ⟨0, _⟩ => show win0_5.index t (0 : Fin 2) * 1 + 1 * 0 = 0; omega
  | ⟨1, _⟩ => show win0_5.index t (1 : Fin 2) * 256 + 1 * q.val = (256 * (t.val / 16) + q.val) % 2048; omega

/-- Bias window 6's block at point t, read off a [1, 2048] row. -/
theorem read_b6 (A : S1x2048.Idx → EReal) (t : Fin cfg0.N) (q : Fin 256) :
    ((cfg0.win 6).blk t).view.read (Elt Ideal) A (ix2 (0 : Fin 1) q) = A (ix2 (0 : Fin 1) (colAt t.val q)) := by
  rw [View.read_apply]
  refine congrArg A (funext fun a => Fin.ext ?_)
  have ht := t_lt t
  obtain ⟨e0, e1⟩ := (idx_facts t).2.2.2.2.2.2.1
  match a with
  | ⟨0, _⟩ => show win0_6.index t (0 : Fin 2) * 1 + 1 * 0 = 0; omega
  | ⟨1, _⟩ => show win0_6.index t (1 : Fin 2) * 256 + 1 * q.val = (256 * (t.val / 16) + q.val) % 2048; omega

/-- Bias window 7's block at point t, read off a [1, 2048] row. -/
theorem read_b7 (A : S1x2048.Idx → EReal) (t : Fin cfg0.N) (q : Fin 256) :
    ((cfg0.win 7).blk t).view.read (Elt Ideal) A (ix2 (0 : Fin 1) q) = A (ix2 (0 : Fin 1) (colAt t.val q)) := by
  rw [View.read_apply]
  refine congrArg A (funext fun a => Fin.ext ?_)
  have ht := t_lt t
  obtain ⟨e0, e1⟩ := (idx_facts t).2.2.2.2.2.2.2.1
  match a with
  | ⟨0, _⟩ => show win0_7.index t (0 : Fin 2) * 1 + 1 * 0 = 0; omega
  | ⟨1, _⟩ => show win0_7.index t (1 : Fin 2) * 256 + 1 * q.val = (256 * (t.val / 16) + q.val) % 2048; omega

/-- Bias window 8's block at point t, read off a [1, 2048] row. -/
theorem read_b8 (A : S1x2048.Idx → EReal) (t : Fin cfg0.N) (q : Fin 256) :
    ((cfg0.win 8).blk t).view.read (Elt Ideal) A (ix2 (0 : Fin 1) q) = A (ix2 (0 : Fin 1) (colAt t.val q)) := by
  rw [View.read_apply]
  refine congrArg A (funext fun a => Fin.ext ?_)
  have ht := t_lt t
  obtain ⟨e0, e1⟩ := (idx_facts t).2.2.2.2.2.2.2.2.1
  match a with
  | ⟨0, _⟩ => show win0_8.index t (0 : Fin 2) * 1 + 1 * 0 = 0; omega
  | ⟨1, _⟩ => show win0_8.index t (1 : Fin 2) * 256 + 1 * q.val = (256 * (t.val / 16) + q.val) % 2048; omega

/-- The cell-state window's block at point t, read off an array. -/
theorem read_c (A : S4096x2048.Idx → EReal) (t : Fin cfg0.N) (p q : Fin 256) :
    ((cfg0.win 9).blk t).view.read (Elt Ideal) A (ix2 p q) = A (ix2 (rowAt t.val p) (colAt t.val q)) := by
  rw [View.read_apply]
  refine congrArg A (funext fun a => Fin.ext ?_)
  have ht := t_lt t
  obtain ⟨e0, e1⟩ := (idx_facts t).2.2.2.2.2.2.2.2.2.1
  match a with
  | ⟨0, _⟩ => show win0_9.index t (0 : Fin 2) * 256 + 1 * p.val = (256 * (t.val % 16) + p.val) % 4096; omega
  | ⟨1, _⟩ => show win0_9.index t (1 : Fin 2) * 256 + 1 * q.val = (256 * (t.val / 16) + q.val) % 2048; omega

/-- The hidden-state output's block at point t, read off an array. -/
theorem read_h_out (A : S4096x2048.Idx → EReal) (t : Fin cfg0.N) (p q : Fin 256) :
    ((cfg0.win 10).blk t).view.read (Elt Ideal) A (ix2 p q) = A (ix2 (rowAt t.val p) (colAt t.val q)) := by
  rw [View.read_apply]
  refine congrArg A (funext fun a => Fin.ext ?_)
  have ht := t_lt t
  obtain ⟨e0, e1⟩ := (idx_facts t).2.2.2.2.2.2.2.2.2.2.1
  match a with
  | ⟨0, _⟩ => show win0_10.index t (0 : Fin 2) * 256 + 1 * p.val = (256 * (t.val % 16) + p.val) % 4096; omega
  | ⟨1, _⟩ => show win0_10.index t (1 : Fin 2) * 256 + 1 * q.val = (256 * (t.val / 16) + q.val) % 2048; omega

/-- The cell-state output's block at point t, read off an array. -/
theorem read_c_out (A : S4096x2048.Idx → EReal) (t : Fin cfg0.N) (p q : Fin 256) :
    ((cfg0.win 11).blk t).view.read (Elt Ideal) A (ix2 p q) = A (ix2 (rowAt t.val p) (colAt t.val q)) := by
  rw [View.read_apply]
  refine congrArg A (funext fun a => Fin.ext ?_)
  have ht := t_lt t
  obtain ⟨e0, e1⟩ := (idx_facts t).2.2.2.2.2.2.2.2.2.2.2
  match a with
  | ⟨0, _⟩ => show win0_11.index t (0 : Fin 2) * 256 + 1 * p.val = (256 * (t.val % 16) + p.val) % 4096; omega
  | ⟨1, _⟩ => show win0_11.index t (1 : Fin 2) * 256 + 1 * q.val = (256 * (t.val / 16) + q.val) % 2048; omega

end Cert.KernelIdeal.LstmBlocks

end
-- ==== Proof.KernelValue.lean ====
/-
  The kernel's two result arrays, on the extended reals, as functions of the arrays the region finds.

  Point t of the 8 × 16 grid writes the [256, 256] blocks at rows 256·(t % 16) … and columns 256·(t / 16) … of the two
  results. Its weight scratches hold, after the point, columns 256·(t / 16) … of the four gate weights: a point with
  t % 16 = 0 has just stored them, and any other point keeps what the point before left, which has the same t / 16.
  So every point's blocks are the cell of the specification read at the block's rows and columns, and since the 128
  blocks tile the [4096, 2048] results, the results are the cell everywhere.
-/
import proofs.«425692_j82154134438018_3_alg».proof.Proof.Gen.KernelIdeal.Value
import proofs.«425692_j82154134438018_3_alg».proof.Proof.Spec
import proofs.«425692_j82154134438018_3_alg».proof.Proof.Pieces
import proofs.«425692_j82154134438018_3_alg».proof.Proof.Payload
import proofs.«425692_j82154134438018_3_alg».proof.Proof.Blocks

set_option maxRecDepth 16384

noncomputable section

namespace Cert.KernelIdeal.LstmValue

open Cert.KernelIdeal Cert.KernelIdeal.Gen Cert.KernelIdeal.LstmBlocks Cert.KernelIdeal.LstmPayload
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

abbrev aX (c : Dev nD) : S4096x3072.Idx → EReal := V m c main_call0_v4
abbrev aWf (c : Dev nD) : S3072x2048.Idx → EReal := V m c main_arg4
abbrev aWi (c : Dev nD) : S3072x2048.Idx → EReal := V m c main_arg6
abbrev aWg (c : Dev nD) : S3072x2048.Idx → EReal := V m c main_arg8
abbrev aWo (c : Dev nD) : S3072x2048.Idx → EReal := V m c main_arg10
abbrev aBf (c : Dev nD) : S1x2048.Idx → EReal := V m c main_call0_v5
abbrev aBi (c : Dev nD) : S1x2048.Idx → EReal := V m c main_call0_v6
abbrev aBg (c : Dev nD) : S1x2048.Idx → EReal := V m c main_call0_v7
abbrev aBo (c : Dev nD) : S1x2048.Idx → EReal := V m c main_call0_v8
abbrev aC (c : Dev nD) : S4096x2048.Idx → EReal := V m c main_arg2

/-- A [1, 2048] row as a [2048] vector. -/
def rowOf (β : S1x2048.Idx → EReal) : S2048.Idx → EReal := fun j => β (ix2 (0 : Fin 1) (⟨(j 0).val, (j 0).isLt⟩ : Fin 2048))

theorem rowOf_ix1 (β : S1x2048.Idx → EReal) (n : Fin 2048) : rowOf β (ix1 n) = β (ix2 (0 : Fin 1) n) := rfl

/-- The new cell state over the arrays the region finds. -/
def GC (c : Dev nD) : S4096x2048.Idx → EReal := fun i =>
  Cert.LstmSpec.cellC (aX m c) (aWf m c) (aWi m c) (aWg m c) (rowOf (aBf m c)) (rowOf (aBi m c)) (rowOf (aBg m c)) (aC m c) (i 0) (i 1)

/-- The new hidden state over the arrays the region finds. -/
def GH (c : Dev nD) : S4096x2048.Idx → EReal := fun i =>
  Cert.LstmSpec.cellH (aX m c) (aWf m c) (aWi m c) (aWg m c) (aWo m c) (rowOf (aBf m c)) (rowOf (aBi m c)) (rowOf (aBg m c)) (rowOf (aBo m c)) (aC m c) (i 0) (i 1)

/-! ## One gate at one entry of one point -/

/-- A gate's block entry is the gate's pre-activation at the block's row and column, when the weight block holds the
    weight's columns of this point. -/
theorem gate_at (c : Dev nD) (t : Fin cfg0.N) (X : Vec Ideal S256x3072 .bf16) (S : Vec Ideal S3072x256 .bf16) (β : Vec Ideal S1x256 .f32)
    (W : S3072x2048.Idx → EReal) (B : S1x2048.Idx → EReal) (p q : Fin 256)
    (hX : ∀ k : Fin 3072, X (ix2 p k) = aX m c (ix2 (rowAt t.val p) k))
    (hS : ∀ k : Fin 3072, S (ix2 k q) = W (ix2 k (colAt t.val q)))
    (hβ : β (ix2 (0 : Fin 1) q) = B (ix2 (0 : Fin 1) (colAt t.val q))) :
    (∑ k : Fin 3072, X (ix2 p k) * S (ix2 k q)) + β (ix2 (0 : Fin 1) q)
      = Cert.LstmSpec.pre (aX m c) W (rowOf B) (rowAt t.val p) (colAt t.val q) := by
  unfold Cert.LstmSpec.pre
  rw [rowOf_ix1, hβ]
  exact congrArg (· + B (ix2 (0 : Fin 1) (colAt t.val q))) (Finset.sum_congr rfl fun k _ => by rw [hX k, hS k])

/-! ## One point -/

/-- What a point's two output blocks hold at (p, q), given that its four weight blocks hold this point's columns of
    the four gate weights: the cell of the specification at the block's row and column. -/
theorem point_val (c : Dev nD) (t : Fin cfg0.N) (S0 S1 S2 S3 : Vec Ideal S3072x256 .bf16)
    (h0 : ∀ (k : Fin 3072) (q : Fin 256), S0 (ix2 k q) = aWf m c (ix2 k (colAt t.val q)))
    (h1 : ∀ (k : Fin 3072) (q : Fin 256), S1 (ix2 k q) = aWi m c (ix2 k (colAt t.val q)))
    (h2 : ∀ (k : Fin 3072) (q : Fin 256), S2 (ix2 k q) = aWg m c (ix2 k (colAt t.val q)))
    (h3 : ∀ (k : Fin 3072) (q : Fin 256), S3 (ix2 k q) = aWo m c (ix2 k (colAt t.val q))) (p q : Fin 256) :
    k0_pay2 (F := Ideal) (k0_pay8 (F := Ideal) (iblk m c 0 t) S2 (iblk m c 7 t)) (k0_pay9 (F := Ideal) (iblk m c 0 t) S0 (iblk m c 5 t)) (k0_pay10 (F := Ideal) (iblk m c 0 t) S1 (iblk m c 6 t)) (k0_pay11 (F := Ideal) (iblk m c 0 t) S3 (iblk m c 8 t)) (iblk m c 9 t) (ix2 p q)
        = GH m c (ix2 (rowAt t.val p) (colAt t.val q))
    ∧ k0_pay1 (F := Ideal) (k0_pay8 (F := Ideal) (iblk m c 0 t) S2 (iblk m c 7 t)) (k0_pay9 (F := Ideal) (iblk m c 0 t) S0 (iblk m c 5 t)) (k0_pay10 (F := Ideal) (iblk m c 0 t) S1 (iblk m c 6 t)) (iblk m c 9 t) (ix2 p q)
        = GC m c (ix2 (rowAt t.val p) (colAt t.val q)) := by
  have hX : ∀ k : Fin 3072, (iblk m c 0 t : Vec Ideal S256x3072 .bf16) (ix2 p k) = aX m c (ix2 (rowAt t.val p) k) :=
    fun k => read_x (aX m c) t p k
  have hbf : (iblk m c 5 t : Vec Ideal S1x256 .f32) (ix2 (0 : Fin 1) q) = aBf m c (ix2 (0 : Fin 1) (colAt t.val q)) := read_b5 (aBf m c) t q
  have hbi : (iblk m c 6 t : Vec Ideal S1x256 .f32) (ix2 (0 : Fin 1) q) = aBi m c (ix2 (0 : Fin 1) (colAt t.val q)) := read_b6 (aBi m c) t q
  have hbg : (iblk m c 7 t : Vec Ideal S1x256 .f32) (ix2 (0 : Fin 1) q) = aBg m c (ix2 (0 : Fin 1) (colAt t.val q)) := read_b7 (aBg m c) t q
  have hbo : (iblk m c 8 t : Vec Ideal S1x256 .f32) (ix2 (0 : Fin 1) q) = aBo m c (ix2 (0 : Fin 1) (colAt t.val q)) := read_b8 (aBo m c) t q
  have hc : (iblk m c 9 t : Vec Ideal S256x256 .f32) (ix2 p q) = aC m c (ix2 (rowAt t.val p) (colAt t.val q)) := read_c (aC m c) t p q
  have ef := (pay9_apply (iblk m c 0 t) S0 (iblk m c 5 t) p q).trans
    (congrArg Ideal.logistic (gate_at m c t (iblk m c 0 t) S0 (iblk m c 5 t) (aWf m c) (aBf m c) p q hX (fun k => h0 k q) hbf))
  have ei := (pay10_apply (iblk m c 0 t) S1 (iblk m c 6 t) p q).trans
    (congrArg Ideal.logistic (gate_at m c t (iblk m c 0 t) S1 (iblk m c 6 t) (aWi m c) (aBi m c) p q hX (fun k => h1 k q) hbi))
  have eg := (pay8_apply (iblk m c 0 t) S2 (iblk m c 7 t) p q).trans
    (gate_at m c t (iblk m c 0 t) S2 (iblk m c 7 t) (aWg m c) (aBg m c) p q hX (fun k => h2 k q) hbg)
  have eo := (pay11_apply (iblk m c 0 t) S3 (iblk m c 8 t) p q).trans
    (congrArg Ideal.logistic (gate_at m c t (iblk m c 0 t) S3 (iblk m c 8 t) (aWo m c) (aBo m c) p q hX (fun k => h3 k q) hbo))
  have eC : k0_pay1 (F := Ideal) (k0_pay8 (F := Ideal) (iblk m c 0 t) S2 (iblk m c 7 t)) (k0_pay9 (F := Ideal) (iblk m c 0 t) S0 (iblk m c 5 t)) (k0_pay10 (F := Ideal) (iblk m c 0 t) S1 (iblk m c 6 t)) (iblk m c 9 t) (ix2 p q)
      = GC m c (ix2 (rowAt t.val p) (colAt t.val q)) := by
    refine (pay1_apply _ _ _ _ _).trans ?_
    rw [ef, ei, eg, hc]
    rfl
  refine ⟨?_, eC⟩
  refine (pay2_apply _ _ _ _ _ _).trans ?_
  rw [eo, eC]
  rfl

/-! ## Every point, by induction along the grid -/

/-- After point n: the two output blocks are the cell at the block's rows and columns, and the four weight scratches
    hold this hidden tile's columns of the four gate weights. -/
def Inv (c : Dev nD) (n : ℕ) (h : n < cfg0.N) : Prop :=
  (∀ p q : Fin 256, (outsAt0 m c n h).1 (ix2 p q) = GH m c (ix2 (rowAt n p) (colAt n q)))
  ∧ (∀ p q : Fin 256, (outsAt0 m c n h).2.1 (ix2 p q) = GC m c (ix2 (rowAt n p) (colAt n q)))
  ∧ (∀ (k : Fin 3072) (q : Fin 256), (outsAt0 m c n h).2.2.1 (ix2 k q) = aWf m c (ix2 k (colAt n q)))
  ∧ (∀ (k : Fin 3072) (q : Fin 256), (outsAt0 m c n h).2.2.2.1 (ix2 k q) = aWi m c (ix2 k (colAt n q)))
  ∧ (∀ (k : Fin 3072) (q : Fin 256), (outsAt0 m c n h).2.2.2.2.1 (ix2 k q) = aWg m c (ix2 k (colAt n q)))
  ∧ (∀ (k : Fin 3072) (q : Fin 256), (outsAt0 m c n h).2.2.2.2.2 (ix2 k q) = aWo m c (ix2 k (colAt n q)))

/-- A point that recasts the weights: the scratches hold the weight blocks it has just loaded. -/
theorem caseA (c : Dev nD) (t : Fin cfg0.N) (h0 : t.val % 16 = 0) : Inv m c t.val t.isLt := by
  have s0 : ∀ (k : Fin 3072) (q : Fin 256), k0_pay3 (F := Ideal) (iblk m c 1 t) (ix2 k q) = aWf m c (ix2 k (colAt t.val q)) :=
    fun k q => (pay3_apply _ _).trans (read_w1 (aWf m c) t k q)
  have s1 : ∀ (k : Fin 3072) (q : Fin 256), k0_pay4 (F := Ideal) (iblk m c 2 t) (ix2 k q) = aWi m c (ix2 k (colAt t.val q)) :=
    fun k q => (pay4_apply _ _).trans (read_w2 (aWi m c) t k q)
  have s2 : ∀ (k : Fin 3072) (q : Fin 256), k0_pay5 (F := Ideal) (iblk m c 3 t) (ix2 k q) = aWg m c (ix2 k (colAt t.val q)) :=
    fun k q => (pay5_apply _ _).trans (read_w3 (aWg m c) t k q)
  have s3 : ∀ (k : Fin 3072) (q : Fin 256), k0_pay6 (F := Ideal) (iblk m c 4 t) (ix2 k q) = aWo m c (ix2 k (colAt t.val q)) :=
    fun k q => (pay6_apply _ _).trans (read_w4 (aWo m c) t k q)
  unfold Inv
  rw [outsAt0_A m c t h0]
  dsimp only
  refine ⟨fun p q => ?_, fun p q => ?_, fun k q => ?_, fun k q => ?_, fun k q => ?_, fun k q => ?_⟩
  · rw [LstmPieces.out_A_10]; exact (point_val m c t _ _ _ _ s0 s1 s2 s3 p q).1
  · rw [LstmPieces.out_A_11]; exact (point_val m c t _ _ _ _ s0 s1 s2 s3 p q).2
  · rw [LstmPieces.sout_A_0]; exact s0 k q
  · rw [LstmPieces.sout_A_1]; exact s1 k q
  · rw [LstmPieces.sout_A_2]; exact s2 k q
  · rw [LstmPieces.sout_A_3]; exact s3 k q

/-- Any other point: the scratches keep what the point before left, which is the same hidden tile's columns. -/
theorem caseB (c : Dev nD) (t : Fin cfg0.N) (h0 : ¬t.val % 16 = 0)
    (hp : Inv m c (t.val - 1) (Nat.lt_of_le_of_lt (Nat.sub_le _ _) t.isLt)) : Inv m c t.val t.isLt := by
  obtain ⟨-, -, p0, p1, p2, p3⟩ := hp
  have hcol : ∀ q : Fin 256, colAt (t.val - 1) q = colAt t.val q := fun q => Fin.ext (by
    show (256 * ((t.val - 1) / 16) + q.val) % 2048 = (256 * (t.val / 16) + q.val) % 2048
    have := t_lt t
    omega)
  have s0 : ∀ (k : Fin 3072) (q : Fin 256), (outsAt0 m c (t.val - 1) (Nat.lt_of_le_of_lt (Nat.sub_le _ _) t.isLt)).2.2.1 (ix2 k q) = aWf m c (ix2 k (colAt t.val q)) :=
    fun k q => (p0 k q).trans (by rw [hcol])
  have s1 : ∀ (k : Fin 3072) (q : Fin 256), (outsAt0 m c (t.val - 1) (Nat.lt_of_le_of_lt (Nat.sub_le _ _) t.isLt)).2.2.2.1 (ix2 k q) = aWi m c (ix2 k (colAt t.val q)) :=
    fun k q => (p1 k q).trans (by rw [hcol])
  have s2 : ∀ (k : Fin 3072) (q : Fin 256), (outsAt0 m c (t.val - 1) (Nat.lt_of_le_of_lt (Nat.sub_le _ _) t.isLt)).2.2.2.2.1 (ix2 k q) = aWg m c (ix2 k (colAt t.val q)) :=
    fun k q => (p2 k q).trans (by rw [hcol])
  have s3 : ∀ (k : Fin 3072) (q : Fin 256), (outsAt0 m c (t.val - 1) (Nat.lt_of_le_of_lt (Nat.sub_le _ _) t.isLt)).2.2.2.2.2 (ix2 k q) = aWo m c (ix2 k (colAt t.val q)) :=
    fun k q => (p3 k q).trans (by rw [hcol])
  unfold Inv
  rw [outsAt0_B m c t h0]
  dsimp only
  refine ⟨fun p q => ?_, fun p q => ?_, fun k q => ?_, fun k q => ?_, fun k q => ?_, fun k q => ?_⟩
  · rw [LstmPieces.out_B_10]; exact (point_val m c t _ _ _ _ s0 s1 s2 s3 p q).1
  · rw [LstmPieces.out_B_11]; exact (point_val m c t _ _ _ _ s0 s1 s2 s3 p q).2
  · exact s0 k q
  · exact s1 k q
  · exact s2 k q
  · exact s3 k q

/-- Every point, by induction on its position. -/
theorem inv (c : Dev nD) : ∀ (n : ℕ) (h : n < cfg0.N), Inv m c n h
  | 0, h => caseA m c ⟨0, h⟩ rfl
  | n + 1, h => by
    by_cases h0 : (n + 1) % 16 = 0
    · exact caseA m c ⟨n + 1, h⟩ h0
    · exact caseB m c ⟨n + 1, h⟩ h0 (inv c n (Nat.lt_of_succ_lt h))

/-! ## From the blocks to the arrays -/

/-- What point t writes back to the hidden-state array is block t of the cell. -/
theorem flushed10_eq (c : Dev nD) (t : Fin cfg0.N) :
    (dats m 0 c).flushed 10 t = ((cfg0.win 10).blk t).view.read (Elt Ideal) (GH m c) := by
  rw [Cert.KernelIdeal.Value.flushed10]
  funext j
  obtain ⟨p, q, rfl⟩ : ∃ (p q : Fin 256), j = ix2 p q := ⟨j 0, j 1, eq_ix2 j⟩
  rw [read_h_out (GH m c) t p q]
  exact (inv m c t.val t.isLt).1 p q

/-- An index of the hidden-state array is in point t's block iff each coordinate is in the block's range. -/
theorem mem_blk10 (t : Fin cfg0.N) (i : S4096x2048.Idx) :
    i ∈ ((cfg0.win 10).blk t).view.set ↔ ∀ a : Fin 2, win0_10.index t a * S256x256.size a ≤ (i a).val ∧ (i a).val < win0_10.index t a * S256x256.size a + S256x256.size a := by
  show i ∈ ((View.whole main_v0_0).slice (win0_10.rect t)).set ↔ _
  rw [View.set_slice_whole, Rect.mem_set_unit]
  exact Iff.rfl

/-- Every index of the hidden-state array lies in the block of the point with hidden tile (i 1) / 256 and batch tile (i 0) / 256. -/
theorem cover10 (i : S4096x2048.Idx) : ∃ t : Fin cfg0.N, (cfg0.win 10).flush t = true ∧ i ∈ ((cfg0.win 10).blk t).view.set := by
  have h0 : (i 0).val < 4096 := (i 0).isLt
  have h1 : (i 1).val < 2048 := (i 1).isLt
  have hN : cfg0.N = 128 := N_0
  let t : Fin cfg0.N := ⟨16 * ((i 1).val / 256) + (i 0).val / 256, by rw [hN]; omega⟩
  have hv : t.val = 16 * ((i 1).val / 256) + (i 0).val / 256 := rfl
  obtain ⟨e0, e1⟩ := (idx_facts t).2.2.2.2.2.2.2.2.2.2.1
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 256 ≤ (i 1).val ∧ (i 1).val < win0_10.index t (1 : Fin 2) * 256 + 256; omega

/-- The hidden-state array after the run is the cell everywhere. -/
theorem final10 (c : Dev nD) : (dats m 0 c).arrAt 10 cfg0.N = GH m c :=
  (dats m 0 c).arrAt_eq_of_cover 10 (GH m c) (fun t _ => flushed10_eq m c t) cover10

/-- What point t writes back to the cell-state array is block t of the cell. -/
theorem flushed11_eq (c : Dev nD) (t : Fin cfg0.N) :
    (dats m 0 c).flushed 11 t = ((cfg0.win 11).blk t).view.read (Elt Ideal) (GC m c) := by
  rw [Cert.KernelIdeal.Value.flushed11]
  funext j
  obtain ⟨p, q, rfl⟩ : ∃ (p q : Fin 256), j = ix2 p q := ⟨j 0, j 1, eq_ix2 j⟩
  rw [read_c_out (GC m c) t p q]
  exact (inv m c t.val t.isLt).2.1 p q

/-- An index of the cell-state array is in point t's block iff each coordinate is in the block's range. -/
theorem mem_blk11 (t : Fin cfg0.N) (i : S4096x2048.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v0_1).slice (win0_11.rect t)).set ↔ _
  rw [View.set_slice_whole, Rect.mem_set_unit]
  exact Iff.rfl

/-- Every index of the cell-state array lies in the block of the point with hidden tile (i 1) / 256 and batch tile (i 0) / 256. -/
theorem cover11 (i : S4096x2048.Idx) : ∃ t : Fin cfg0.N, (cfg0.win 11).flush t = true ∧ i ∈ ((cfg0.win 11).blk t).view.set := by
  have h0 : (i 0).val < 4096 := (i 0).isLt
  have h1 : (i 1).val < 2048 := (i 1).isLt
  have hN : cfg0.N = 128 := N_0
  let t : Fin cfg0.N := ⟨16 * ((i 1).val / 256) + (i 0).val / 256, by rw [hN]; omega⟩
  have hv : t.val = 16 * ((i 1).val / 256) + (i 0).val / 256 := rfl
  obtain ⟨e0, e1⟩ := (idx_facts t).2.2.2.2.2.2.2.2.2.2.2
  refine ⟨t, flush0_11 t, ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 256 ≤ (i 1).val ∧ (i 1).val < win0_11.index t (1 : Fin 2) * 256 + 256; omega

/-- The cell-state array after the run is the cell everywhere. -/
theorem final11 (c : Dev nD) : (dats m 0 c).arrAt 11 cfg0.N = GC m c :=
  (dats m 0 c).arrAt_eq_of_cover 11 (GC m c) (fun t _ => flushed11_eq m c t) cover11

end Cert.KernelIdeal.LstmValue

end
-- ==== Proof.HostGlue.lean ====
/-
  What the kernel's host glue hands the region, on the extended reals, when every token is a valid row index.

  The glue gathers the embedding rows with the wrapped index and then replaces a row by a not-a-number row unless
  0 ≤ w ≤ 50256 for its wrapped index w. A token v with -50257 ≤ v ≤ 50256 wraps to w = v + 50257 or w = v, inside
  that range either way, so nothing is replaced and the row input is the gathered rows beside the hidden state
  (rounding to bf16 being the identity here). The four biases reach the region as [1, 2048] rows of the same entries.
-/
import proofs.«425692_j82154134438018_3_alg».proof.Defs
import proofs.«425692_j82154134438018_3_alg».proof.Proof.Gen.KernelIdeal.Frame.Runs
import proofs.«425692_j82154134438018_3_alg».proof.Proof.Gen.Pre_finite_inputs
import proofs.«425692_j82154134438018_3_alg».proof.Proof.Spec
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value

set_option maxRecDepth 16384

noncomputable section

namespace Cert.KernelIdeal.LstmHost

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The precondition is a conjunction whose two outermost conjuncts say that every token is at least -50257 and at
    most 50256 (each an "all" over the [4096, 1] array of a signed comparison with a constant); the conjuncts inside,
    about the float arrays, are not opened. The word 4294917039 is -50257 read signed. -/
private theorem fn_range (x : IVec Cert.Pre_finite_inputs.S4096x1 32)
    (a1 a2 : FVec Ideal Cert.Pre_finite_inputs.S4096x2048 .f32) (a3 : FVec Ideal Cert.Pre_finite_inputs.S50257x1024 .f32)
    (a4 : FVec Ideal Cert.Pre_finite_inputs.S3072x2048 .f32) (a5 : FVec Ideal Cert.Pre_finite_inputs.S2048 .f32)
    (a6 : FVec Ideal Cert.Pre_finite_inputs.S3072x2048 .f32) (a7 : FVec Ideal Cert.Pre_finite_inputs.S2048 .f32)
    (a8 : FVec Ideal Cert.Pre_finite_inputs.S3072x2048 .f32) (a9 : FVec Ideal Cert.Pre_finite_inputs.S2048 .f32)
    (a10 : FVec Ideal Cert.Pre_finite_inputs.S3072x2048 .f32) (a11 : FVec Ideal Cert.Pre_finite_inputs.S2048 .f32)
    (h : Cert.Pre_finite_inputs.fn (F := Ideal) x a1 a2 a3 a4 a5 a6 a7 a8 a9 a10 a11 ix0 = 1#1)
    (j : Cert.Pre_finite_inputs.S4096x1.Idx) :
    -50257 ≤ (x j).toInt ∧ (x j).toInt ≤ 50256 := by
  haveI : Subsingleton Cert.Pre_finite_inputs.S_.Idx := ⟨fun a b => funext fun d => d.elim0⟩
  unfold Cert.Pre_finite_inputs.fn Cert.Pre_finite_inputs.fn_part1 Cert.Pre_finite_inputs.fn_part2 Cert.Pre_finite_inputs.fn_part3 at h
  dsimp only at h
  change IntOp.andi (IntOp.andi _ _) _ = 1#1 at h
  obtain ⟨h1, h60⟩ := IntOp.andi_eq_one.1 h
  obtain ⟨_, h56⟩ := IntOp.andi_eq_one.1 h1
  have k56 := Host.reduce_andi_all _ _ _ _ ix0 h56 j
  have k60 := Host.reduce_andi_all _ _ _ _ ix0 h60 j
  have l56 : IntOp.cmpi .sge (x j) 4294917039#32 = 1#1 := k56
  have l60 : IntOp.cmpi .sle (x j) 50256#32 = 1#1 := k60
  have r56 := IntOp.cmpi_sge.1 l56
  have r60 := IntOp.cmpi_sle.1 l60
  have c1 : (4294917039#32 : BitVec 32).toInt = -50257 := by decide
  have c2 : (50256#32 : BitVec 32).toInt = 50256 := by decide
  rw [c1] at r56; rw [c2] at r60
  exact ⟨r56, r60⟩

/-- Every token lies in [-50257, 50256], read off the precondition. -/
theorem token_range (hpre : Cert.Pre_KernelIdeal m) (c : Dev nD) (b : Fin 4096) :
    -50257 ≤ ((m ((c : Thread nD τ).loc main_arg0)) (ix2 b (0 : Fin 1))).toInt ∧ ((m ((c : Thread nD τ).loc main_arg0)) (ix2 b (0 : Fin 1))).toInt ≤ 50256 :=
  fn_range _ _ _ _ _ _ _ _ _ _ _ _ (congrFun (hpre c) ix0) (ix2 b (0 : Fin 1))

/-- The word a token wraps to: v + 50257 for a negative v, v otherwise. -/
private def wsel (t : BitVec 32) : BitVec 32 := Scalar.select (IntOp.cmpi .slt t 0#32) (IntOp.addi t 50257#32) t

/-- Whether each row's wrapped index w lies in [0, 50256], spread along the row. -/
private def maskOf (idx : IVec S4096x1 32) : IVec S4096x1024 1 :=
  broadcastInDim S4096x1024 ![0] bcast_S4096_S4096x1024_0
    (Host.reduce IntOp.andi
      (andi (cmpi .sge idx (broadcastInDim S4096x1 ![] bcast_S_S4096x1 (constantI S_ 32 0#32)))
        (cmpi .sle idx (broadcastInDim S4096x1 ![0, 1] bcast_S1x1_S4096x1_0_1 (broadcastInDim S1x1 ![1] bcast_S1_S1x1_1 (constantI S1 32 50256#32)))))
      (constantI S_ 1 1#1) reducesTo_S4096x1_S4096_d1 h_S_)

/-- A token in [-50257, 50256] wraps to a word in [0, 50256]: below zero the sum v + 50257 does not overflow. -/
private theorem wsel_range (t : BitVec 32) (h0 : -50257 ≤ t.toInt) (h1 : t.toInt ≤ 50256) :
    IntOp.andi (IntOp.cmpi .sge (wsel t) 0#32) (IntOp.cmpi .sle (wsel t) 50256#32) = 1#1 := by
  rw [IntOp.andi_eq_one, IntOp.cmpi_sge, IntOp.cmpi_sle]
  have z : (0#32 : BitVec 32).toInt = 0 := by decide
  have c2 : (50256#32 : BitVec 32).toInt = 50256 := by decide
  rw [z, c2]
  unfold wsel
  by_cases hn : t.toInt < 0
  · have hc : IntOp.cmpi .slt t 0#32 = 1#1 := IntOp.cmpi_slt.2 (by rw [z]; exact hn)
    rw [hc, select_one]
    have hs : (IntOp.addi t 50257#32).toInt = t.toInt + 50257 := by
      show (t + 50257#32).toInt = _
      have ht := t.isLt
      simp only [BitVec.toInt, BitVec.toNat_add, BitVec.toNat_ofNat] at hn h0 ⊢
      omega
    rw [hs]; omega
  · have hc : IntOp.cmpi .slt t 0#32 = 0#1 :=
      eq_zero_of_ne_one (fun h => hn (by have := IntOp.cmpi_slt.1 h; rwa [z] at this))
    rw [hc, select_zero]; omega

/-- An "all" over an array of ones, started at one, is one. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize ((List.finRange s.numel).map s.rowMajor.symm).filter (fun i => h.drop i = j) = l
  have one : IntOp.andi 1#1 1#1 = 1#1 := by decide
  induction l with
  | nil => rfl
  | cons a l ih => rw [List.foldl_cons, hx a, one]; exact ih

/-- Each entry of the wrapped-index column is the wrap of some token. -/
private theorem wrapIdx_apply (x : IVec S4096x1 32) (i : S4096x1.Idx) : ∃ j, Cert.LstmSpec.wrapIdx x i = wsel (x j) :=
  ⟨_, rfl⟩

/-- With every token in range no row is masked out. -/
private theorem maskOf_wrap (x : IVec S4096x1 32) (hx : ∀ j, -50257 ≤ (x j).toInt ∧ (x j).toInt ≤ 50256) :
    maskOf (Cert.LstmSpec.wrapIdx x) = fun _ => 1#1 := by
  funext j
  unfold maskOf broadcastInDim
  refine reduce_andi_ones _ _ _ _ (fun i => ?_) (fun _ => rfl) _
  obtain ⟨k, hk⟩ := wrapIdx_apply x i
  show IntOp.andi (IntOp.cmpi .sge (Cert.LstmSpec.wrapIdx x i) 0#32) (IntOp.cmpi .sle (Cert.LstmSpec.wrapIdx x i) 50256#32) = 1#1
  rw [hk]; exact wsel_range _ (hx k).1 (hx k).2

set_option maxHeartbeats 4000000 in
/-- The row input as the host operations compute it: the gathered rows, a row replaced by a not-a-number row where the
    mask is clear, rounded to bf16, beside the hidden state rounded to bf16. -/
private theorem hostTerm (c : Dev nD) :
    (V m c main_call0_v4 : S4096x3072.Idx → EReal)
      = concatenate S4096x3072 1
          [⟨S4096x1024, truncf .bf16 (select (maskOf (Cert.LstmSpec.wrapIdx (m ((c : Thread nD τ).loc main_arg0))))
              (Host.gather gather_S50257x1024_S4096x1_S4096x1024_1_0_n_n_0_1_11024 (m ((c : Thread nD τ).loc main_arg3)) (Cert.LstmSpec.wrapIdx (m ((c : Thread nD τ).loc main_arg0))))
              (broadcastInDim S4096x1024 ![] bcast_S_S4096x1024 (constant (F := Ideal) S_ .f32 0x7FC00000#32))) bitsLt_bf16_f32⟩,
           ⟨S4096x2048, truncf .bf16 (m ((c : Thread nD τ).loc main_arg1)) bitsLt_bf16_f32⟩]
          concatenates_S4096x1024_S4096x2048_S4096x3072_d1 := by
  dsimp only [Gen.V, Gen.hostOps0]; after_results; rfl

/-- The row input the region finds is the specification's. -/
theorem V_ic (hpre : Cert.Pre_KernelIdeal m) (c : Dev nD) :
    (V m c main_call0_v4 : S4096x3072.Idx → EReal)
      = Cert.LstmSpec.xin (m ((c : Thread nD τ).loc main_arg3)) (m ((c : Thread nD τ).loc main_arg0)) (m ((c : Thread nD τ).loc main_arg1)) := by
  refine (hostTerm m c).trans ?_
  have hm := maskOf_wrap (m ((c : Thread nD τ).loc main_arg0))
    (fun j => fn_range _ _ _ _ _ _ _ _ _ _ _ _ (congrFun (hpre c) ix0) j)
  -- the select keeps every gathered row, and rounding to bf16 changes nothing on the extended reals
  have hrow : (truncf .bf16 (select (maskOf (Cert.LstmSpec.wrapIdx (m ((c : Thread nD τ).loc main_arg0))))
        (Host.gather gather_S50257x1024_S4096x1_S4096x1024_1_0_n_n_0_1_11024 (m ((c : Thread nD τ).loc main_arg3)) (Cert.LstmSpec.wrapIdx (m ((c : Thread nD τ).loc main_arg0))))
        (broadcastInDim S4096x1024 ![] bcast_S_S4096x1024 (constant (F := Ideal) S_ .f32 0x7FC00000#32))) bitsLt_bf16_f32 : S4096x1024.Idx → EReal)
      = Cert.LstmSpec.rows (m ((c : Thread nD τ).loc main_arg3)) (m ((c : Thread nD τ).loc main_arg0)) := by
    funext i
    refine (select_apply _ _ _ i).trans ?_
    rw [congrFun hm i]
    exact select_one _ _
  have hh : (truncf (F := Ideal) .bf16 (m ((c : Thread nD τ).loc main_arg1)) bitsLt_bf16_f32 : S4096x2048.Idx → EReal)
      = m ((c : Thread nD τ).loc main_arg1) := by funext i; rfl
  exact congrArg₂ (fun (a : S4096x1024.Idx → EReal) (b : S4096x2048.Idx → EReal) =>
    concatenate S4096x3072 1 [⟨S4096x1024, a⟩, ⟨S4096x2048, b⟩] concatenates_S4096x1024_S4096x2048_S4096x3072_d1) hrow hh

/-- A [2048] array recast to [1, 2048], read at (0, n), is the array at n: both sit at flat position n. -/
private theorem row_apply (x : S2048.Idx → EReal) (n : Fin 2048) :
    shapeCast S1x2048 x shapeCasts_S2048_S1x2048 (ix2 (0 : Fin 1) n) = x (ix1 n) :=
  shapeCast_apply x shapeCasts_S2048_S1x2048 (ix2 (0 : Fin 1) n) (ix1 n)
    (by rewrite [Shape.rowMajor_val_two, Shape.rowMajor_val_one]; show n.val = (0 : Fin 1).val * 2048 + n.val; simp)

/-- The forget gate's bias row. -/
theorem V_bf (c : Dev nD) (n : Fin 2048) :
    (V m c main_call0_v5 : S1x2048.Idx → EReal) (ix2 (0 : Fin 1) n) = (m ((c : Thread nD τ).loc main_arg5)) (ix1 n) := by
  have e : (V m c main_call0_v5 : S1x2048.Idx → EReal) = shapeCast S1x2048 (m ((c : Thread nD τ).loc main_arg5)) shapeCasts_S2048_S1x2048 := by
    dsimp only [Gen.V, Gen.hostOps0]; after_results; rfl
  rw [e]; exact row_apply _ n

/-- The input gate's bias row. -/
theorem V_bi (c : Dev nD) (n : Fin 2048) :
    (V m c main_call0_v6 : S1x2048.Idx → EReal) (ix2 (0 : Fin 1) n) = (m ((c : Thread nD τ).loc main_arg7)) (ix1 n) := by
  have e : (V m c main_call0_v6 : S1x2048.Idx → EReal) = shapeCast S1x2048 (m ((c : Thread nD τ).loc main_arg7)) shapeCasts_S2048_S1x2048 := by
    dsimp only [Gen.V, Gen.hostOps0]; after_results; rfl
  rw [e]; exact row_apply _ n

/-- The candidate's bias row. -/
theorem V_bc (c : Dev nD) (n : Fin 2048) :
    (V m c main_call0_v7 : S1x2048.Idx → EReal) (ix2 (0 : Fin 1) n) = (m ((c : Thread nD τ).loc main_arg9)) (ix1 n) := by
  have e : (V m c main_call0_v7 : S1x2048.Idx → EReal) = shapeCast S1x2048 (m ((c : Thread nD τ).loc main_arg9)) shapeCasts_S2048_S1x2048 := by
    dsimp only [Gen.V, Gen.hostOps0]; after_results; rfl
  rw [e]; exact row_apply _ n

/-- The output gate's bias row. -/
theorem V_bo (c : Dev nD) (n : Fin 2048) :
    (V m c main_call0_v8 : S1x2048.Idx → EReal) (ix2 (0 : Fin 1) n) = (m ((c : Thread nD τ).loc main_arg11)) (ix1 n) := by
  have e : (V m c main_call0_v8 : S1x2048.Idx → EReal) = shapeCast S1x2048 (m ((c : Thread nD τ).loc main_arg11)) shapeCasts_S2048_S1x2048 := by
    dsimp only [Gen.V, Gen.hostOps0]; after_results; rfl
  rw [e]; exact row_apply _ n

end Cert.KernelIdeal.LstmHost

end
-- ==== Proof.KernelRun.lean ====
/-
  The kernel's run, read: under the precondition both result arrays are the specification's cell of the twelve
  arguments.

  The arrays the region finds are the arguments themselves, except the row input — which the host glue builds, and which
  is the specification's row input when every token is a valid row index — and the four biases, which arrive as
  [1, 2048] rows of the same entries.
-/
import proofs.«425692_j82154134438018_3_alg».proof.Defs
import proofs.«425692_j82154134438018_3_alg».proof.Proof.KernelValue
import proofs.«425692_j82154134438018_3_alg».proof.Proof.HostGlue

set_option maxRecDepth 16384

noncomputable section

namespace Cert.KernelIdeal.LstmRun

open Cert.KernelIdeal Cert.KernelIdeal.Gen Cert.KernelIdeal.LstmValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- A [1, 2048] row whose entries are a [2048] vector's is that vector. -/
theorem rowOf_eq (β' : S1x2048.Idx → EReal) (β : S2048.Idx → EReal)
    (h : ∀ n : Fin 2048, β' (ix2 (0 : Fin 1) n) = β (ix1 n)) : rowOf β' = β := by
  funext j
  show β' (ix2 (0 : Fin 1) (⟨(j 0).val, (j 0).isLt⟩ : Fin 2048)) = β j
  rw [h]
  exact congrArg β (funext fun d => match d with | ⟨0, _⟩ => rfl)

section
variable (hpre : Cert.Pre_KernelIdeal m) (c : Dev nD)
include hpre

theorem eX : aX m c = Cert.LstmSpec.xin (m ((c : Thread nD τ).loc main_arg3)) (m ((c : Thread nD τ).loc main_arg0)) (m ((c : Thread nD τ).loc main_arg1)) :=
  Cert.KernelIdeal.LstmHost.V_ic m hpre c

/-- The new hidden state over the arrays the region finds is the specification's over the arguments. -/
theorem GH_eq : GH m c = Cert.LstmSpec.outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have hX := eX m hpre c
  have hWf : aWf m c = (m ((c : Thread nD τ).loc main_arg4)) := V_main_arg4 m c
  have hWi : aWi m c = (m ((c : Thread nD τ).loc main_arg6)) := V_main_arg6 m c
  have hWg : aWg m c = (m ((c : Thread nD τ).loc main_arg8)) := V_main_arg8 m c
  have hWo : aWo m c = (m ((c : Thread nD τ).loc main_arg10)) := V_main_arg10 m c
  have hC : aC m c = (m ((c : Thread nD τ).loc main_arg2)) := V_main_arg2 m c
  have hBf : rowOf (aBf m c) = (m ((c : Thread nD τ).loc main_arg5)) := rowOf_eq _ _ (Cert.KernelIdeal.LstmHost.V_bf m c)
  have hBi : rowOf (aBi m c) = (m ((c : Thread nD τ).loc main_arg7)) := rowOf_eq _ _ (Cert.KernelIdeal.LstmHost.V_bi m c)
  have hBg : rowOf (aBg m c) = (m ((c : Thread nD τ).loc main_arg9)) := rowOf_eq _ _ (Cert.KernelIdeal.LstmHost.V_bc m c)
  have hBo : rowOf (aBo m c) = (m ((c : Thread nD τ).loc main_arg11)) := rowOf_eq _ _ (Cert.KernelIdeal.LstmHost.V_bo m c)
  unfold GH Cert.LstmSpec.outH
  rw [hX, hWf, hWi, hWg, hWo, hC, hBf, hBi, hBg, hBo]

/-- The new cell state over the arrays the region finds is the specification's over the arguments. -/
theorem GC_eq : GC m c = Cert.LstmSpec.outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have hX := eX m hpre c
  have hWf : aWf m c = (m ((c : Thread nD τ).loc main_arg4)) := V_main_arg4 m c
  have hWi : aWi m c = (m ((c : Thread nD τ).loc main_arg6)) := V_main_arg6 m c
  have hWg : aWg m c = (m ((c : Thread nD τ).loc main_arg8)) := V_main_arg8 m c
  have hC : aC m c = (m ((c : Thread nD τ).loc main_arg2)) := V_main_arg2 m c
  have hBf : rowOf (aBf m c) = (m ((c : Thread nD τ).loc main_arg5)) := rowOf_eq _ _ (Cert.KernelIdeal.LstmHost.V_bf m c)
  have hBi : rowOf (aBi m c) = (m ((c : Thread nD τ).loc main_arg7)) := rowOf_eq _ _ (Cert.KernelIdeal.LstmHost.V_bi m c)
  have hBg : rowOf (aBg m c) = (m ((c : Thread nD τ).loc main_arg9)) := rowOf_eq _ _ (Cert.KernelIdeal.LstmHost.V_bc m c)
  unfold GC Cert.LstmSpec.outC
  rw [hX, hWf, hWi, hWg, hC, hBf, hBi, hBg]

end

/-- The run: each result array at the specification's cell of the arguments, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v0_0) = Cert.LstmSpec.outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_1) = Cert.LstmSpec.outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final10 m c).trans (GH_eq m hpre c)),
      (h c).2.1.trans ((final11 m c).trans (GC_eq m hpre c)), (h c).2.2⟩)
    (Cert.KernelIdeal.Value.run_blocks m ρ)

end Cert.KernelIdeal.LstmRun

end
-- ==== Proof.RefValue.lean ====
/-
  The reference computes the specification's cell, on the extended reals.

  The reference multiplies the row input by the four gate weights laid side by side ([3072, 8192]), adds the four biases
  laid end to end, and cuts the [4096, 8192] result into its four [4096, 2048] column bands. Column g·2048 + n of the
  joined weight is column n of gate g's weight, and entry g·2048 + n of the joined bias is entry n of gate g's bias, so
  band g at (b, n) is that gate's pre-activation; 1 / (1 + e^(-x)) spelt with the host's operations is the logistic.
-/
import proofs.«425692_j82154134438018_3_alg».proof.Proof.Gen.ReferenceIdeal.Read
import proofs.«425692_j82154134438018_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.LstmRef

open Cert.ReferenceIdeal Cert.ReferenceIdeal.Gen Cert.ReferenceIdeal.Read
open Idealize.ShloMosaic Idealize.ShloMosaic.ValueIdx

/-! ## The constant, the row input, the logistic -/

/-- The word 0x3F800000 denotes 1. -/
private theorem one_bits : Ideal.ofBits .f32 0x3F800000#32 = 1 := by
  simp [Ideal.ofBits, Ideal.ieee, -EReal.coe_mul]; norm_num

/-- The reference's row input is the specification's: the same gather of the same wrapped index, joined with the same
    hidden state. -/
private theorem v8_eq (x0 : (⟨S4096x1, .i32⟩ : BufTy).Contents (Elt Ideal)) (x1 : (⟨S4096x2048, .f32⟩ : BufTy).Contents (Elt Ideal)) (x3 : (⟨S50257x1024, .f32⟩ : BufTy).Contents (Elt Ideal)) :
    val_main_v8 (F := Ideal) x0 x1 x3 = Cert.LstmSpec.xin x3 x0 x1 := rfl

/-- 1 / (1 + e^(-x)), spelt with the host's negation, exponential, sum and quotient, is the logistic. -/
private theorem sigm (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  simp only [Ideal.hostDivf_def, Ideal.addf_def, Ideal.hostUnary_exp_def, Ideal.hostNegf_def, Ideal.negf_def, Ideal.ofBits_def, one_bits]
  rfl

/-! ## The joined weight and the joined bias, read at an index

Column g·2048 + n of the joined weight is column n of gate g's weight; entry g·2048 + n of the joined bias is entry n of
gate g's bias. -/

private theorem v9_p0 (x4 x6 x8 x10 : (⟨S3072x2048, .f32⟩ : BufTy).Contents (Elt Ideal)) (j : S3072x8192.Idx) (k : Fin 3072) (n : Fin 2048)
    (h0 : (j 0).val = k.val) (h1 : (j 1).val = 0 + n.val) :
    val_main_v9 (F := Ideal) x4 x6 x8 x10 j = x4 (ix2 k n) := by
  unfold val_main_v9
  exact concatenate_apply_piece (t := S3072x8192) 1 _ _ j 0 (by show _ < 4; omega) S3072x2048 x4 rfl rfl 0 rfl (ix2 k n)
    (fun b hb => match b, hb with | ⟨0, _⟩, _ => h0.symm | ⟨1, _⟩, hb => absurd rfl hb) h1.symm

private theorem v9_p1 (x4 x6 x8 x10 : (⟨S3072x2048, .f32⟩ : BufTy).Contents (Elt Ideal)) (j : S3072x8192.Idx) (k : Fin 3072) (n : Fin 2048)
    (h0 : (j 0).val = k.val) (h1 : (j 1).val = 2048 + n.val) :
    val_main_v9 (F := Ideal) x4 x6 x8 x10 j = x6 (ix2 k n) := by
  unfold val_main_v9
  exact concatenate_apply_piece (t := S3072x8192) 1 _ _ j 1 (by show _ < 4; omega) S3072x2048 x6 rfl rfl 2048 rfl (ix2 k n)
    (fun b hb => match b, hb with | ⟨0, _⟩, _ => h0.symm | ⟨1, _⟩, hb => absurd rfl hb) h1.symm

private theorem v9_p2 (x4 x6 x8 x10 : (⟨S3072x2048, .f32⟩ : BufTy).Contents (Elt Ideal)) (j : S3072x8192.Idx) (k : Fin 3072) (n : Fin 2048)
    (h0 : (j 0).val = k.val) (h1 : (j 1).val = 4096 + n.val) :
    val_main_v9 (F := Ideal) x4 x6 x8 x10 j = x8 (ix2 k n) := by
  unfold val_main_v9
  exact concatenate_apply_piece (t := S3072x8192) 1 _ _ j 2 (by show _ < 4; omega) S3072x2048 x8 rfl rfl 4096 rfl (ix2 k n)
    (fun b hb => match b, hb with | ⟨0, _⟩, _ => h0.symm | ⟨1, _⟩, hb => absurd rfl hb) h1.symm

private theorem v9_p3 (x4 x6 x8 x10 : (⟨S3072x2048, .f32⟩ : BufTy).Contents (Elt Ideal)) (j : S3072x8192.Idx) (k : Fin 3072) (n : Fin 2048)
    (h0 : (j 0).val = k.val) (h1 : (j 1).val = 6144 + n.val) :
    val_main_v9 (F := Ideal) x4 x6 x8 x10 j = x10 (ix2 k n) := by
  unfold val_main_v9
  exact concatenate_apply_piece (t := S3072x8192) 1 _ _ j 3 (by show _ < 4; omega) S3072x2048 x10 rfl rfl 6144 rfl (ix2 k n)
    (fun b hb => match b, hb with | ⟨0, _⟩, _ => h0.symm | ⟨1, _⟩, hb => absurd rfl hb) h1.symm

private theorem v10_p0 (x5 x7 x9 x11 : (⟨S2048, .f32⟩ : BufTy).Contents (Elt Ideal)) (j : S8192.Idx) (n : Fin 2048)
    (h0 : (j 0).val = 0 + n.val) :
    val_main_v10 (F := Ideal) x5 x7 x9 x11 j = x5 (ix1 n) := by
  unfold val_main_v10
  exact concatenate_apply_piece (t := S8192) 0 _ _ j 0 (by show _ < 4; omega) S2048 x5 rfl rfl 0 rfl (ix1 n)
    (fun b hb => match b, hb with | ⟨0, _⟩, hb => absurd rfl hb) h0.symm

private theorem v10_p1 (x5 x7 x9 x11 : (⟨S2048, .f32⟩ : BufTy).Contents (Elt Ideal)) (j : S8192.Idx) (n : Fin 2048)
    (h0 : (j 0).val = 2048 + n.val) :
    val_main_v10 (F := Ideal) x5 x7 x9 x11 j = x7 (ix1 n) := by
  unfold val_main_v10
  exact concatenate_apply_piece (t := S8192) 0 _ _ j 1 (by show _ < 4; omega) S2048 x7 rfl rfl 2048 rfl (ix1 n)
    (fun b hb => match b, hb with | ⟨0, _⟩, hb => absurd rfl hb) h0.symm

private theorem v10_p2 (x5 x7 x9 x11 : (⟨S2048, .f32⟩ : BufTy).Contents (Elt Ideal)) (j : S8192.Idx) (n : Fin 2048)
    (h0 : (j 0).val = 4096 + n.val) :
    val_main_v10 (F := Ideal) x5 x7 x9 x11 j = x9 (ix1 n) := by
  unfold val_main_v10
  exact concatenate_apply_piece (t := S8192) 0 _ _ j 2 (by show _ < 4; omega) S2048 x9 rfl rfl 4096 rfl (ix1 n)
    (fun b hb => match b, hb with | ⟨0, _⟩, hb => absurd rfl hb) h0.symm

private theorem v10_p3 (x5 x7 x9 x11 : (⟨S2048, .f32⟩ : BufTy).Contents (Elt Ideal)) (j : S8192.Idx) (n : Fin 2048)
    (h0 : (j 0).val = 6144 + n.val) :
    val_main_v10 (F := Ideal) x5 x7 x9 x11 j = x11 (ix1 n) := by
  unfold val_main_v10
  exact concatenate_apply_piece (t := S8192) 0 _ _ j 3 (by show _ < 4; omega) S2048 x11 rfl rfl 6144 rfl (ix1 n)
    (fun b hb => match b, hb with | ⟨0, _⟩, hb => absurd rfl hb) h0.symm

/-! ## The pre-activations -/

/-- The joined product plus the joined bias, read at an index whose row is b and whose column falls in a gate's band at
    n, is that gate's pre-activation at (b, n). -/
private theorem v14_at (x0 : (⟨S4096x1, .i32⟩ : BufTy).Contents (Elt Ideal)) (x1 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) (j : S4096x8192.Idx) (b : Fin 4096) (n : Fin 2048)
    (W : S3072x2048.Idx → EReal) (β : S2048.Idx → EReal)
    (hb : (j 0).val = b.val)
    (hW : ∀ k : Fin 3072, val_main_v9 (F := Ideal) x4 x6 x8 x10 (ridx_main_v11 j k) = W (ix2 k n))
    (hβ : val_main_v10 (F := Ideal) x5 x7 x9 x11 (idx_main_v12 (idx_main_v13 j)) = β (ix1 n)) :
    val_main_v14 (F := Ideal) x0 x1 x3 x4 x5 x6 x7 x8 x9 x10 x11 j = Cert.LstmSpec.pre (Cert.LstmSpec.xin x3 x0 x1) W β b n := by
  rw [val_main_v14_apply, val_main_v11_apply, val_main_v13_apply, val_main_v12_apply, hβ, v8_eq]
  unfold Cert.LstmSpec.pre
  have hl : ∀ k : Fin 3072, lidx_main_v11 j k = ix2 b k := fun k => funext fun a => Fin.ext (by
    match a with
    | ⟨0, _⟩ => exact hb
    | ⟨1, _⟩ => rfl)
  show (∑ k : Fin 3072, _) + _ = _
  refine congrArg (fun s : EReal => s + β (ix1 n)) ?_
  refine Finset.sum_congr rfl fun k _ => ?_
  rw [hl k, hW k]

/-- Band f (columns 0 to 2047). -/
private theorem band0 (x0 : (⟨S4096x1, .i32⟩ : BufTy).Contents (Elt Ideal)) (x1 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) (b : Fin 4096) (n : Fin 2048) :
    val_main_v15 (F := Ideal) x0 x1 x3 x4 x5 x6 x7 x8 x9 x10 x11 (ix2 b n) = Cert.LstmSpec.pre (Cert.LstmSpec.xin x3 x0 x1) x4 x5 b n := by
  rw [val_main_v15_apply]
  exact v14_at x0 x1 x3 x4 x5 x6 x7 x8 x9 x10 x11 (idx_main_v15 (ix2 b n)) b n x4 x5 rfl
    (fun k => v9_p0 x4 x6 x8 x10 _ k n rfl (Nat.zero_add _).symm)
    (v10_p0 x5 x7 x9 x11 _ n (Nat.zero_add _).symm)

/-- Band i (columns 2048 to 4095). -/
private theorem band1 (x0 : (⟨S4096x1, .i32⟩ : BufTy).Contents (Elt Ideal)) (x1 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) (b : Fin 4096) (n : Fin 2048) :
    val_main_v16 (F := Ideal) x0 x1 x3 x4 x5 x6 x7 x8 x9 x10 x11 (ix2 b n) = Cert.LstmSpec.pre (Cert.LstmSpec.xin x3 x0 x1) x6 x7 b n := by
  rw [val_main_v16_apply]
  exact v14_at x0 x1 x3 x4 x5 x6 x7 x8 x9 x10 x11 (idx_main_v16 (ix2 b n)) b n x6 x7 rfl
    (fun k => v9_p1 x4 x6 x8 x10 _ k n rfl rfl)
    (v10_p1 x5 x7 x9 x11 _ n rfl)

/-- Band g (columns 4096 to 6143). -/
private theorem band2 (x0 : (⟨S4096x1, .i32⟩ : BufTy).Contents (Elt Ideal)) (x1 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) (b : Fin 4096) (n : Fin 2048) :
    val_main_v17 (F := Ideal) x0 x1 x3 x4 x5 x6 x7 x8 x9 x10 x11 (ix2 b n) = Cert.LstmSpec.pre (Cert.LstmSpec.xin x3 x0 x1) x8 x9 b n := by
  rw [val_main_v17_apply]
  exact v14_at x0 x1 x3 x4 x5 x6 x7 x8 x9 x10 x11 (idx_main_v17 (ix2 b n)) b n x8 x9 rfl
    (fun k => v9_p2 x4 x6 x8 x10 _ k n rfl rfl)
    (v10_p2 x5 x7 x9 x11 _ n rfl)

/-- Band o (columns 6144 to 8191). -/
private theorem band3 (x0 : (⟨S4096x1, .i32⟩ : BufTy).Contents (Elt Ideal)) (x1 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) (b : Fin 4096) (n : Fin 2048) :
    val_main_v18 (F := Ideal) x0 x1 x3 x4 x5 x6 x7 x8 x9 x10 x11 (ix2 b n) = Cert.LstmSpec.pre (Cert.LstmSpec.xin x3 x0 x1) x10 x11 b n := by
  rw [val_main_v18_apply]
  exact v14_at x0 x1 x3 x4 x5 x6 x7 x8 x9 x10 x11 (idx_main_v18 (ix2 b n)) b n x10 x11 rfl
    (fun k => v9_p3 x4 x6 x8 x10 _ k n rfl rfl)
    (v10_p3 x5 x7 x9 x11 _ n rfl)

/-! ## The cell at (b, n) -/

/-- The new cell state at (b, n): σ(pre_f) · c + σ(pre_i) · tanh(pre_g). -/
private theorem C_at (x0 : (⟨S4096x1, .i32⟩ : BufTy).Contents (Elt Ideal)) (x1 x2 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) (b : Fin 4096) (n : Fin 2048) :
    val_main_v34 (F := Ideal) x0 x1 x2 x3 x4 x5 x6 x7 x8 x9 x10 x11 (ix2 b n)
      = Cert.LstmSpec.cellC (Cert.LstmSpec.xin x3 x0 x1) x4 x6 x8 x5 x7 x9 x2 b n := by
  unfold Cert.LstmSpec.cellC
  rw [val_main_v34_apply, val_main_v31_apply, val_main_v33_apply, val_main_v24_apply, val_main_v30_apply, val_main_v32_apply,
    val_main_v23_apply, val_main_v29_apply, val_main_cst_1_apply, val_main_cst_3_apply,
    val_main_v22_apply, val_main_v28_apply, val_main_v21_apply, val_main_v27_apply, val_main_cst_apply, val_main_cst_2_apply,
    val_main_v20_apply, val_main_v26_apply, val_main_v19_apply, val_main_v25_apply, band0, band1, band2, sigm, sigm]
  rfl

/-- The new hidden state at (b, n): σ(pre_o) · tanh of the new cell state. -/
private theorem H_at (x0 : (⟨S4096x1, .i32⟩ : BufTy).Contents (Elt Ideal)) (x1 x2 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) (b : Fin 4096) (n : Fin 2048) :
    val_main_v42 (F := Ideal) x0 x1 x2 x3 x4 x5 x6 x7 x8 x9 x10 x11 (ix2 b n)
      = Cert.LstmSpec.cellH (Cert.LstmSpec.xin x3 x0 x1) x4 x6 x8 x10 x5 x7 x9 x11 x2 b n := by
  unfold Cert.LstmSpec.cellH
  rw [val_main_v42_apply, val_main_v40_apply, val_main_v41_apply, val_main_v39_apply, val_main_cst_5_apply,
    val_main_v38_apply, val_main_v37_apply, val_main_cst_4_apply, val_main_v36_apply, val_main_v35_apply, band3, sigm, C_at]
  rfl

/-- The reference's new cell state is the specification's. -/
theorem ref_C (x0 : (⟨S4096x1, .i32⟩ : BufTy).Contents (Elt Ideal)) (x1 x2 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) :
    val_main_v34 (F := Ideal) x0 x1 x2 x3 x4 x5 x6 x7 x8 x9 x10 x11
      = Cert.LstmSpec.outC x0 x1 x2 x3 x4 x5 x6 x7 x8 x9 x10 x11 := by
  funext i
  obtain ⟨b, n, rfl⟩ : ∃ (b : Fin 4096) (n : Fin 2048), i = ix2 b n := ⟨i 0, i 1, eq_ix2 i⟩
  rw [Cert.LstmSpec.outC_ix2]
  exact C_at x0 x1 x2 x3 x4 x5 x6 x7 x8 x9 x10 x11 b n

/-- The reference's new hidden state is the specification's. -/
theorem ref_H (x0 : (⟨S4096x1, .i32⟩ : BufTy).Contents (Elt Ideal)) (x1 x2 : (⟨S4096x2048, .f32⟩ : BufTy).Contents (Elt Ideal)) (x3 : (⟨S50257x1024, .f32⟩ : BufTy).Contents (Elt Ideal)) (x4 : (⟨S3072x2048, .f32⟩ : BufTy).Contents (Elt Ideal)) (x5 : (⟨S2048, .f32⟩ : BufTy).Contents (Elt Ideal)) (x6 : (⟨S3072x2048, .f32⟩ : BufTy).Contents (Elt Ideal)) (x7 : (⟨S2048, .f32⟩ : BufTy).Contents (Elt Ideal)) (x8 : (⟨S3072x2048, .f32⟩ : BufTy).Contents (Elt Ideal)) (x9 : (⟨S2048, .f32⟩ : BufTy).Contents (Elt Ideal)) (x10 : (⟨S3072x2048, .f32⟩ : BufTy).Contents (Elt Ideal)) (x11 : (⟨S2048, .f32⟩ : BufTy).Contents (Elt Ideal)) :
    val_main_v42 (F := Ideal) x0 x1 x2 x3 x4 x5 x6 x7 x8 x9 x10 x11
      = Cert.LstmSpec.outH x0 x1 x2 x3 x4 x5 x6 x7 x8 x9 x10 x11 := by
  funext i
  obtain ⟨b, n, rfl⟩ : ∃ (b : Fin 4096) (n : Fin 2048), i = ix2 b n := ⟨i 0, i 1, eq_ix2 i⟩
  rw [Cert.LstmSpec.outH_ix2]
  exact H_at x0 x1 x2 x3 x4 x5 x6 x7 x8 x9 x10 x11 b n

end Cert.ReferenceIdeal.LstmRef

end
-- ==== Proof.lean ====
/-
  The certificate of an LSTM cell kernel against its jnp reference, on the extended reals.

  Both programs compute, for every batch row b and hidden column n,
      c'[b, n] = σ(f) · c[b, n] + σ(i) · tanh(g),      h'[b, n] = σ(o) · tanh(c'[b, n]),
  where f, i, g, o are the four gates' pre-activations (Σ k, X[b, k] · W[k, n]) + β[n] over the row input
  X = [ emb[x[b]] | h[b] ] and σ x = 1 / (1 + e^(-x)).

  The kernel computes them tile by tile — a 8 × 16 grid of [256, 256] blocks, each gate's weight block rounded to bf16
  once per hidden tile and kept in a scratch across the sixteen batch tiles — with four separate products; the reference
  multiplies X by the four weights laid side by side and cuts the result into four bands. On the extended reals rounding
  is the identity, a product into a zero accumulator is the plain sum, and the two spell the same sums term by term, so
  no finiteness of the inputs is used.

  What is used of the precondition is the range of the tokens: the kernel's gather replaces a row by not-a-number unless
  its wrapped index lies in [0, 50256], which the reference does not do; for tokens in [-50257, 50256] no row is
  replaced and the two row inputs are the same array.

  The frames of the two kernel programs are the generated ones; the reference's frame is its generated run with the
  results dropped; the ideal pass rewrote nothing, so there is nothing to preserve.
-/
import proofs.«425692_j82154134438018_3_alg».proof.Defs
import proofs.«425692_j82154134438018_3_alg».proof.Proof.Gen.Kernel
import proofs.«425692_j82154134438018_3_alg».proof.Proof.Gen.Kernel.Skeleton
import proofs.«425692_j82154134438018_3_alg».proof.Proof.Gen.Kernel.Launch
import proofs.«425692_j82154134438018_3_alg».proof.Proof.Gen.Kernel.Points
import proofs.«425692_j82154134438018_3_alg».proof.Proof.Gen.Kernel.Frame
import proofs.«425692_j82154134438018_3_alg».proof.Proof.Gen.KernelIdeal
import proofs.«425692_j82154134438018_3_alg».proof.Proof.Gen.KernelIdeal.Skeleton
import proofs.«425692_j82154134438018_3_alg».proof.Proof.Gen.KernelIdeal.Launch
import proofs.«425692_j82154134438018_3_alg».proof.Proof.Gen.KernelIdeal.Points
import proofs.«425692_j82154134438018_3_alg».proof.Proof.Gen.KernelIdeal.Frame
import proofs.«425692_j82154134438018_3_alg».proof.Proof.Gen.ReferenceIdeal
import proofs.«425692_j82154134438018_3_alg».proof.Proof.Gen.Pre_finite_inputs
import proofs.«425692_j82154134438018_3_alg».proof.Proof.Gen.KernelIdeal.Value
import proofs.«425692_j82154134438018_3_alg».proof.Proof.Gen.ReferenceIdeal.Run
import proofs.«425692_j82154134438018_3_alg».proof.Proof.Gen.ReferenceIdeal.Read
import proofs.«425692_j82154134438018_3_alg».proof.Proof.KernelRun
import proofs.«425692_j82154134438018_3_alg».proof.Proof.RefValue
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the twelve arguments, with every token a valid row index, both programs end with the
    specification's new hidden state and new cell state of those arguments. -/
theorem algebraic : Cert.algebraic_KernelIdeal_ReferenceIdeal := by
  intro m ρ m' ρ' hpre hagree
  refine ⟨_, _, Cert.KernelIdeal.LstmRun.run m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v42_eq, Cert.ReferenceIdeal.LstmRef.ref_H, a0, a1, a2, a3, a4, a5, a6, a7, a8, a9, a10, a11]
  · obtain ⟨a0, a1, a2, a3, a4, a5, a6, a7, a8, a9, a10, a11⟩ := hagree c
    rw [Cert.ReferenceIdeal.Read.val_main_v34_eq, Cert.ReferenceIdeal.LstmRef.ref_C, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
